-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S50000x101 : Shape := ⟨2, ![50000, 101]⟩
abbrev S_ : Shape := ⟨0, ![]⟩

class Facts : Prop where
  bcast_S_S50000x101 : S_.BroadcastsInDim S50000x101 (![] : Fin 0 → Fin S50000x101.rank)
  reducesTo_S50000x101_S_d0_1 : S50000x101.ReducesTo [0, 1] S_
  h_S_ : 0 < S_.numel

variable [Facts]

def fn {F : FTy → Type} [FloatOps F] (main_arg0 : IVec S64x512 32) (main_arg1 : IVec S64x512 32) (main_arg2 : IVec S64x512 32) (main_arg3 : IVec S64x512 32) (main_arg4 : FVec F S50000x101 .f32) : IVec S_ 1 :=
  let main_v0 : FVec F S50000x101 .f32 := Host.absf main_arg4
  let main_cst : FVec F S_ .f32 := constant S_ .f32 0x7F800000#32
  let main_v1 : FVec F S50000x101 .f32 := broadcastInDim S50000x101 ![] bcast_S_S50000x101 main_cst
  let main_v2 : IVec S50000x101 1 := cmpf .olt main_v0 main_v1
  let main_c : IVec S_ 1 := constantI S_ 1 1#1
  let main_v3 : IVec S_ 1 := (fun x v => Host.reduce IntOp.andi x v reducesTo_S50000x101_S_d0_1 h_S_) main_v2 main_c
  main_v3
-- ==== Kernel.lean ====
abbrev S64x512 : Shape := ⟨2, ![64, 512]⟩
abbrev S50000x101 : Shape := ⟨2, ![50000, 101]⟩
abbrev S_ : Shape := ⟨0, ![]⟩
abbrev S64x512x1 : Shape := ⟨3, ![64, 512, 1]⟩
abbrev S64x512x101 : Shape := ⟨3, ![64, 512, 101]⟩
abbrev S64x512x512 : Shape := ⟨3, ![64, 512, 512]⟩
abbrev S8x128x101 : Shape := ⟨3, ![8, 128, 101]⟩
abbrev S8x128 : Shape := ⟨2, ![8, 128]⟩
abbrev S8x512 : Shape := ⟨2, ![8, 512]⟩
abbrev S8x128x512 : Shape := ⟨3, ![8, 128, 512]⟩
abbrev S8x1x512 : Shape := ⟨3, ![8, 1, 512]⟩
abbrev S8x128x1 : Shape := ⟨3, ![8, 128, 1]⟩

abbrev nBuf : Space → Nat
  | .hbm => 15
  | .vmem => 10
  | .smem => 0
  | _ => 0

abbrev bufTy : (tb : Table) → Fin (tcTables nBuf tb) → BufTy
  | .hbm, ⟨0, _⟩ => ⟨S64x512, .i32⟩
  | .hbm, ⟨1, _⟩ => ⟨S64x512, .i32⟩
  | .hbm, ⟨2, _⟩ => ⟨S64x512, .i32⟩
  | .hbm, ⟨3, _⟩ => ⟨S64x512, .i32⟩
  | .hbm, ⟨4, _⟩ => ⟨S50000x101, .f32⟩
  | .hbm, ⟨5, _⟩ => ⟨S_, .i32⟩
  | .hbm, ⟨6, _⟩ => ⟨S64x512, .i32⟩
  | .hbm, ⟨7, _⟩ => ⟨S64x512, .i1⟩
  | .hbm, ⟨8, _⟩ => ⟨S_, .i32⟩
  | .hbm, ⟨9, _⟩ => ⟨S64x512, .i32⟩
  | .hbm, ⟨10, _⟩ => ⟨S64x512, .i32⟩
  | .hbm, ⟨11, _⟩ => ⟨S64x512, .i32⟩
  | .hbm, ⟨12, _⟩ => ⟨S64x512x1, .i32⟩
  | .hbm, ⟨13, _⟩ => ⟨S64x512x101, .f32⟩
  | .hbm, ⟨14, _⟩ => ⟨S64x512x512, .f32⟩
  | .local _ .vmem, ⟨0, _⟩ => ⟨S8x128x101, .f32⟩
  | .local _ .vmem, ⟨1, _⟩ => ⟨S8x128x101, .f32⟩
  | .local _ .vmem, ⟨2, _⟩ => ⟨S8x128, .i32⟩
  | .local _ .vmem, ⟨3, _⟩ => ⟨S8x128, .i32⟩
  | .local _ .vmem, ⟨4, _⟩ => ⟨S8x512, .i32⟩
  | .local _ .vmem, ⟨5, _⟩ => ⟨S8x512, .i32⟩
  | .local _ .vmem, ⟨6, _⟩ => ⟨S8x512, .i32⟩
  | .local _ .vmem, ⟨7, _⟩ => ⟨S8x512, .i32⟩
  | .local _ .vmem, ⟨8, _⟩ => ⟨S8x128x512, .f32⟩
  | .local _ .vmem, ⟨9, _⟩ => ⟨S8x128x512, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  inb_S8x128_S8x128_0_0 : ∀ a, (![0, 0] : Fin 2 → Nat) a + S8x128.size a ≤ S8x128.size a
  h_S8x128 : 0 < S8x128.numel
  inb_S8x512_S8x512_0_0 : ∀ a, (![0, 0] : Fin 2 → Nat) a + S8x512.size a ≤ S8x512.size a
  h_S8x512 : 0 < S8x512.numel
  inb_S8x128x101_S8x128x101_0_0_0 : ∀ a, (![0, 0, 0] : Fin 3 → Nat) a + S8x128x101.size a ≤ S8x128x101.size a
  h_S8x128x101 : 0 < S8x128x101.numel
  shapeCasts_S8x128x101_S8x128x101 : S8x128x101.ShapeCasts S8x128x101
  shapeCasts_S8x512_S8x1x512 : S8x512.ShapeCasts S8x1x512
  shapeCasts_S8x128_S8x128x1 : S8x128.ShapeCasts S8x128x1
  broadcasts_S8x1x512_S8x128x512 : S8x1x512.Broadcasts S8x128x512
  broadcasts_S8x128x1_S8x128x512 : S8x128x1.Broadcasts S8x128x512
  slices_S8x128x101_o0_0_0_S8x128x1 : S8x128x101.Slices ![0, 0, 0] S8x128x1
  shapeCasts_S8x128x1_S8x128 : S8x128x1.ShapeCasts S8x128
  shapeCasts_S8x128x1_S8x128x1 : S8x128x1.ShapeCasts S8x128x1
  slices_S8x128x101_o0_0_1_S8x128x1 : S8x128x101.Slices ![0, 0, 1] S8x128x1
  slices_S8x128x101_o0_0_2_S8x128x1 : S8x128x101.Slices ![0, 0, 2] S8x128x1
  slices_S8x128x101_o0_0_3_S8x128x1 : S8x128x101.Slices ![0, 0, 3] S8x128x1
  slices_S8x128x101_o0_0_4_S8x128x1 : S8x128x101.Slices ![0, 0, 4] S8x128x1
  slices_S8x128x101_o0_0_5_S8x128x1 : S8x128x101.Slices ![0, 0, 5] S8x128x1
  slices_S8x128x101_o0_0_6_S8x128x1 : S8x128x101.Slices ![0, 0, 6] S8x128x1
  slices_S8x128x101_o0_0_7_S8x128x1 : S8x128x101.Slices ![0, 0, 7] S8x128x1
  slices_S8x128x101_o0_0_8_S8x128x1 : S8x128x101.Slices ![0, 0, 8] S8x128x1
  slices_S8x128x101_o0_0_9_S8x128x1 : S8x128x101.Slices ![0, 0, 9] S8x128x1
  slices_S8x128x101_o0_0_10_S8x128x1 : S8x128x101.Slices ![0, 0, 10] S8x128x1
  slices_S8x128x101_o0_0_11_S8x128x1 : S8x128x101.Slices ![0, 0, 11] S8x128x1
  slices_S8x128x101_o0_0_12_S8x128x1 : S8x128x101.Slices ![0, 0, 12] S8x128x1
  slices_S8x128x101_o0_0_13_S8x128x1 : S8x128x101.Slices ![0, 0, 13] S8x128x1
  slices_S8x128x101_o0_0_14_S8x128x1 : S8x128x101.Slices ![0, 0, 14] S8x128x1
  slices_S8x128x101_o0_0_15_S8x128x1 : S8x128x101.Slices ![0, 0, 15] S8x128x1
  slices_S8x128x101_o0_0_16_S8x128x1 : S8x128x101.Slices ![0, 0, 16] S8x128x1
  slices_S8x128x101_o0_0_17_S8x128x1 : S8x128x101.Slices ![0, 0, 17] S8x128x1
  slices_S8x128x101_o0_0_18_S8x128x1 : S8x128x101.Slices ![0, 0, 18] S8x128x1
  slices_S8x128x101_o0_0_19_S8x128x1 : S8x128x101.Slices ![0, 0, 19] S8x128x1
  slices_S8x128x101_o0_0_20_S8x128x1 : S8x128x101.Slices ![0, 0, 20] S8x128x1
  slices_S8x128x101_o0_0_21_S8x128x1 : S8x128x101.Slices ![0, 0, 21] S8x128x1
  slices_S8x128x101_o0_0_22_S8x128x1 : S8x128x101.Slices ![0, 0, 22] S8x128x1
  slices_S8x128x101_o0_0_23_S8x128x1 : S8x128x101.Slices ![0, 0, 23] S8x128x1
  slices_S8x128x101_o0_0_24_S8x128x1 : S8x128x101.Slices ![0, 0, 24] S8x128x1
  slices_S8x128x101_o0_0_25_S8x128x1 : S8x128x101.Slices ![0, 0, 25] S8x128x1
  slices_S8x128x101_o0_0_26_S8x128x1 : S8x128x101.Slices ![0, 0, 26] S8x128x1
  slices_S8x128x101_o0_0_27_S8x128x1 : S8x128x101.Slices ![0, 0, 27] S8x128x1
  slices_S8x128x101_o0_0_28_S8x128x1 : S8x128x101.Slices ![0, 0, 28] S8x128x1
  slices_S8x128x101_o0_0_29_S8x128x1 : S8x128x101.Slices ![0, 0, 29] S8x128x1
  slices_S8x128x101_o0_0_30_S8x128x1 : S8x128x101.Slices ![0, 0, 30] S8x128x1
  slices_S8x128x101_o0_0_31_S8x128x1 : S8x128x101.Slices ![0, 0, 31] S8x128x1
  slices_S8x128x101_o0_0_32_S8x128x1 : S8x128x101.Slices ![0, 0, 32] S8x128x1
  slices_S8x128x101_o0_0_33_S8x128x1 : S8x128x101.Slices ![0, 0, 33] S8x128x1
  slices_S8x128x101_o0_0_34_S8x128x1 : S8x128x101.Slices ![0, 0, 34] S8x128x1
  slices_S8x128x101_o0_0_35_S8x128x1 : S8x128x101.Slices ![0, 0, 35] S8x128x1
  slices_S8x128x101_o0_0_36_S8x128x1 : S8x128x101.Slices ![0, 0, 36] S8x128x1
  slices_S8x128x101_o0_0_37_S8x128x1 : S8x128x101.Slices ![0, 0, 37] S8x128x1
  slices_S8x128x101_o0_0_38_S8x128x1 : S8x128x101.Slices ![0, 0, 38] S8x128x1
  slices_S8x128x101_o0_0_39_S8x128x1 : S8x128x101.Slices ![0, 0, 39] S8x128x1
  slices_S8x128x101_o0_0_40_S8x128x1 : S8x128x101.Slices ![0, 0, 40] S8x128x1
  slices_S8x128x101_o0_0_41_S8x128x1 : S8x128x101.Slices ![0, 0, 41] S8x128x1
  slices_S8x128x101_o0_0_42_S8x128x1 : S8x128x101.Slices ![0, 0, 42] S8x128x1
  slices_S8x128x101_o0_0_43_S8x128x1 : S8x128x101.Slices ![0, 0, 43] S8x128x1
  slices_S8x128x101_o0_0_44_S8x128x1 : S8x128x101.Slices ![0, 0, 44] S8x128x1
  slices_S8x128x101_o0_0_45_S8x128x1 : S8x128x101.Slices ![0, 0, 45] S8x128x1
  slices_S8x128x101_o0_0_46_S8x128x1 : S8x128x101.Slices ![0, 0, 46] S8x128x1
  slices_S8x128x101_o0_0_47_S8x128x1 : S8x128x101.Slices ![0, 0, 47] S8x128x1
  slices_S8x128x101_o0_0_48_S8x128x1 : S8x128x101.Slices ![0, 0, 48] S8x128x1
  slices_S8x128x101_o0_0_49_S8x128x1 : S8x128x101.Slices ![0, 0, 49] S8x128x1
  slices_S8x128x101_o0_0_50_S8x128x1 : S8x128x101.Slices ![0, 0, 50] S8x128x1
  slices_S8x128x101_o0_0_51_S8x128x1 : S8x128x101.Slices ![0, 0, 51] S8x128x1
  slices_S8x128x101_o0_0_52_S8x128x1 : S8x128x101.Slices ![0, 0, 52] S8x128x1
  slices_S8x128x101_o0_0_53_S8x128x1 : S8x128x101.Slices ![0, 0, 53] S8x128x1
  slices_S8x128x101_o0_0_54_S8x128x1 : S8x128x101.Slices ![0, 0, 54] S8x128x1
  slices_S8x128x101_o0_0_55_S8x128x1 : S8x128x101.Slices ![0, 0, 55] S8x128x1
  slices_S8x128x101_o0_0_56_S8x128x1 : S8x128x101.Slices ![0, 0, 56] S8x128x1
  slices_S8x128x101_o0_0_57_S8x128x1 : S8x128x101.Slices ![0, 0, 57] S8x128x1
  slices_S8x128x101_o0_0_58_S8x128x1 : S8x128x101.Slices ![0, 0, 58] S8x128x1
  slices_S8x128x101_o0_0_59_S8x128x1 : S8x128x101.Slices ![0, 0, 59] S8x128x1
  slices_S8x128x101_o0_0_60_S8x128x1 : S8x128x101.Slices ![0, 0, 60] S8x128x1
  slices_S8x128x101_o0_0_61_S8x128x1 : S8x128x101.Slices ![0, 0, 61] S8x128x1
  slices_S8x128x101_o0_0_62_S8x128x1 : S8x128x101.Slices ![0, 0, 62] S8x128x1
  slices_S8x128x101_o0_0_63_S8x128x1 : S8x128x101.Slices ![0, 0, 63] S8x128x1
  slices_S8x128x101_o0_0_64_S8x128x1 : S8x128x101.Slices ![0, 0, 64] S8x128x1
  slices_S8x128x101_o0_0_65_S8x128x1 : S8x128x101.Slices ![0, 0, 65] S8x128x1
  slices_S8x128x101_o0_0_66_S8x128x1 : S8x128x101.Slices ![0, 0, 66] S8x128x1
  slices_S8x128x101_o0_0_67_S8x128x1 : S8x128x101.Slices ![0, 0, 67] S8x128x1
  slices_S8x128x101_o0_0_68_S8x128x1 : S8x128x101.Slices ![0, 0, 68] S8x128x1
  slices_S8x128x101_o0_0_69_S8x128x1 : S8x128x101.Slices ![0, 0, 69] S8x128x1
  slices_S8x128x101_o0_0_70_S8x128x1 : S8x128x101.Slices ![0, 0, 70] S8x128x1
  slices_S8x128x101_o0_0_71_S8x128x1 : S8x128x101.Slices ![0, 0, 71] S8x128x1
  slices_S8x128x101_o0_0_72_S8x128x1 : S8x128x101.Slices ![0, 0, 72] S8x128x1
  slices_S8x128x101_o0_0_73_S8x128x1 : S8x128x101.Slices ![0, 0, 73] S8x128x1
  slices_S8x128x101_o0_0_74_S8x128x1 : S8x128x101.Slices ![0, 0, 74] S8x128x1
  slices_S8x128x101_o0_0_75_S8x128x1 : S8x128x101.Slices ![0, 0, 75] S8x128x1
  slices_S8x128x101_o0_0_76_S8x128x1 : S8x128x101.Slices ![0, 0, 76] S8x128x1
  slices_S8x128x101_o0_0_77_S8x128x1 : S8x128x101.Slices ![0, 0, 77] S8x128x1
  slices_S8x128x101_o0_0_78_S8x128x1 : S8x128x101.Slices ![0, 0, 78] S8x128x1
  slices_S8x128x101_o0_0_79_S8x128x1 : S8x128x101.Slices ![0, 0, 79] S8x128x1
  slices_S8x128x101_o0_0_80_S8x128x1 : S8x128x101.Slices ![0, 0, 80] S8x128x1
  slices_S8x128x101_o0_0_81_S8x128x1 : S8x128x101.Slices ![0, 0, 81] S8x128x1
  slices_S8x128x101_o0_0_82_S8x128x1 : S8x128x101.Slices ![0, 0, 82] S8x128x1
  slices_S8x128x101_o0_0_83_S8x128x1 : S8x128x101.Slices ![0, 0, 83] S8x128x1
  slices_S8x128x101_o0_0_84_S8x128x1 : S8x128x101.Slices ![0, 0, 84] S8x128x1
  slices_S8x128x101_o0_0_85_S8x128x1 : S8x128x101.Slices ![0, 0, 85] S8x128x1
  slices_S8x128x101_o0_0_86_S8x128x1 : S8x128x101.Slices ![0, 0, 86] S8x128x1
  slices_S8x128x101_o0_0_87_S8x128x1 : S8x128x101.Slices ![0, 0, 87] S8x128x1
  slices_S8x128x101_o0_0_88_S8x128x1 : S8x128x101.Slices ![0, 0, 88] S8x128x1
  slices_S8x128x101_o0_0_89_S8x128x1 : S8x128x101.Slices ![0, 0, 89] S8x128x1
  slices_S8x128x101_o0_0_90_S8x128x1 : S8x128x101.Slices ![0, 0, 90] S8x128x1
  slices_S8x128x101_o0_0_91_S8x128x1 : S8x128x101.Slices ![0, 0, 91] S8x128x1
  slices_S8x128x101_o0_0_92_S8x128x1 : S8x128x101.Slices ![0, 0, 92] S8x128x1
  slices_S8x128x101_o0_0_93_S8x128x1 : S8x128x101.Slices ![0, 0, 93] S8x128x1
  slices_S8x128x101_o0_0_94_S8x128x1 : S8x128x101.Slices ![0, 0, 94] S8x128x1
  slices_S8x128x101_o0_0_95_S8x128x1 : S8x128x101.Slices ![0, 0, 95] S8x128x1
  slices_S8x128x101_o0_0_96_S8x128x1 : S8x128x101.Slices ![0, 0, 96] S8x128x1
  slices_S8x128x101_o0_0_97_S8x128x1 : S8x128x101.Slices ![0, 0, 97] S8x128x1
  slices_S8x128x101_o0_0_98_S8x128x1 : S8x128x101.Slices ![0, 0, 98] S8x128x1
  slices_S8x128x101_o0_0_99_S8x128x1 : S8x128x101.Slices ![0, 0, 99] S8x128x1
  slices_S8x128x101_o0_0_100_S8x128x1 : S8x128x101.Slices ![0, 0, 100] S8x128x1
  reduces_S8x128x512_S8x128 : S8x128x512.Reduces [2] S8x128
  inb_S8x128x512_S8x128x512_0_0_0 : ∀ a, (![0, 0, 0] : Fin 3 → Nat) a + S8x128x512.size a ≤ S8x128x512.size a
  h_S8x128x512 : 0 < S8x128x512.numel
  gather_S50000x101_S64x512x1_S64x512x101_2_0_n_n_0_2_1101_wf : GatherDims.WF S50000x101 S64x512x1 S64x512x101 [2] [0] [] [0] [] 2 ![1, 101]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x101.size a ≤ S64x512x101.size a
  hwx0_0 : ∀ i : grid0.Coords, EltTy.bits .f32 = 32 ∨ (Rect.block (s := S64x512x101) S8x128x101.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x512.size a
  hwx0_1 : ∀ i : grid0.Coords, EltTy.bits .i32 = 32 ∨ (Rect.block (s := S64x512) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S64x512.size a
  hwx0_2 : ∀ i : grid0.Coords, EltTy.bits .i32 = 32 ∨ (Rect.block (s := S64x512) S8x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x512.size a
  hwx0_3 : ∀ i : grid0.Coords, EltTy.bits .i32 = 32 ∨ (Rect.block (s := S64x512) S8x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x512.size a ≤ S64x512x512.size a
  hwx0_4 : ∀ i : grid0.Coords, EltTy.bits .f32 = 32 ∨ (Rect.block (s := S64x512x512) S8x128x512.size (cc0_transform_4 i) (hinb0_4 i)).WholeWords (EltTy.packing .f32)

variable [Facts₀]

def gather_S50000x101_S64x512x1_S64x512x101_2_0_n_n_0_2_1101 : GatherDims S50000x101 S64x512x1 S64x512x101 where
  offsetDims := [2]
  collapsedSliceDims := [0]
  operandBatchingDims := []
  startIndicesBatchingDims := []
  startIndexMap := [0]
  indexVectorDim := 2
  sliceSizes := ![1, 101]
  wf := gather_S50000x101_S64x512x1_S64x512x101_2_0_n_n_0_2_1101_wf

abbrev win0_0 : Pipeline.Window sig grid0 :=
  Pipeline.Window.ofSpec (Memref.whole main_v6) S8x128x101.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512 : Shape := ⟨2, ![64, 512]⟩
abbrev S50000x101 : Shape := ⟨2, ![50000, 101]⟩
abbrev S_ : Shape := ⟨0, ![]⟩
abbrev S64x512x1 : Shape := ⟨3, ![64, 512, 1]⟩
abbrev S64x512x101 : Shape := ⟨3, ![64, 512, 101]⟩
abbrev S64x1x512 : Shape := ⟨3, ![64, 1, 512]⟩
abbrev S64x512x512 : Shape := ⟨3, ![64, 512, 512]⟩
abbrev S64x512x512x1 : Shape := ⟨4, ![64, 512, 512, 1]⟩
abbrev S1 : Shape := ⟨1, ![1]⟩
abbrev S1x1x1x1 : Shape := ⟨4, ![1, 1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S64x512, .i32⟩
  | .hbm, ⟨2, _⟩ => ⟨S64x512, .i32⟩
  | .hbm, ⟨3, _⟩ => ⟨S64x512, .i32⟩
  | .hbm, ⟨4, _⟩ => ⟨S50000x101, .f32⟩
  | .hbm, ⟨5, _⟩ => ⟨S_, .i32⟩
  | .hbm, ⟨6, _⟩ => ⟨S64x512, .i32⟩
  | .hbm, ⟨7, _⟩ => ⟨S64x512, .i1⟩
  | .hbm, ⟨8, _⟩ => ⟨S_, .i32⟩
  | .hbm, ⟨9, _⟩ => ⟨S64x512, .i32⟩
  | .hbm, ⟨10, _⟩ => ⟨S64x512, .i32⟩
  | .hbm, ⟨11, _⟩ => ⟨S64x512, .i32⟩
  | .hbm, ⟨12, _⟩ => ⟨S64x512x1, .i32⟩
  | .hbm, ⟨13, _⟩ => ⟨S64x512x101, .f32⟩
  | .hbm, ⟨14, _⟩ => ⟨S64x1x512, .i32⟩
  | .hbm, ⟨15, _⟩ => ⟨S64x512x1, .i32⟩
  | .hbm, ⟨16, _⟩ => ⟨S64x512x512, .i32⟩
  | .hbm, ⟨17, _⟩ => ⟨S64x512x512, .i32⟩
  | .hbm, ⟨18, _⟩ => ⟨S64x512x512, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S64x512x512, .i32⟩
  | .hbm, ⟨23, _⟩ => ⟨S64x512x512, .i32⟩
  | .hbm, ⟨24, _⟩ => ⟨S_, .i32⟩
  | .hbm, ⟨25, _⟩ => ⟨S64x512x512, .i32⟩
  | .hbm, ⟨26, _⟩ => ⟨S64x512x512, .i32⟩
  | .hbm, ⟨27, _⟩ => ⟨S_, .i32⟩
  | .hbm, ⟨28, _⟩ => ⟨S64x512x512, .i32⟩
  | .hbm, ⟨29, _⟩ => ⟨S64x512x512, .i32⟩
  | .hbm, ⟨30, _⟩ => ⟨S_, .i32⟩
  | .hbm, ⟨31, _⟩ => ⟨S64x512x512, .i32⟩
  | .hbm, ⟨32, _⟩ => ⟨S64x512x512, .i1⟩
  | .hbm, ⟨33, _⟩ => ⟨S_, .i32⟩
  | .hbm, ⟨34, _⟩ => ⟨S64x512x512, .i32⟩
  | .hbm, ⟨35, _⟩ => ⟨S64x512x512, .i32⟩
  | .hbm, ⟨36, _⟩ => ⟨S64x512x512, .i32⟩
  | .hbm, ⟨37, _⟩ => ⟨S64x512x512x1, .i32⟩
  | .hbm, ⟨38, _⟩ => ⟨S1, .i32⟩
  | .hbm, ⟨39, _⟩ => ⟨S_, .i32⟩
  | .hbm, ⟨40, _⟩ => ⟨S64x512x512x1, .i32⟩
  | .hbm, ⟨41, _⟩ => ⟨S64x512x512x1, .i1⟩
  | .hbm, ⟨42, _⟩ => ⟨S1x1x1x1, .i32⟩
  | .hbm, ⟨43, _⟩ => ⟨S64x512x512x1, .i32⟩
  | .hbm, ⟨44, _⟩ => ⟨S64x512x512x1, .i1⟩
  | .hbm, ⟨45, _⟩ => ⟨S64x512x512x1, .i1⟩
  | .hbm, ⟨46, _⟩ => ⟨S_, .i1⟩
  | .hbm, ⟨47, _⟩ => ⟨S64x512x512, .i1⟩
  | .hbm, ⟨48, _⟩ => ⟨S64x512x512, .f32⟩
  | .hbm, ⟨49, _⟩ => ⟨S_, .f32⟩
  | .hbm, ⟨50, _⟩ => ⟨S64x512x512, .f32⟩
  | .hbm, ⟨51, _⟩ => ⟨S64x512x512, .f32⟩
  | .hbm, ⟨52, _⟩ => ⟨S64x1x512, .i32⟩
  | .hbm, ⟨53, _⟩ => ⟨S64x1x512, .f32⟩
  | .hbm, ⟨54, _⟩ => ⟨S_, .f32⟩
  | .hbm, ⟨55, _⟩ => ⟨S64x1x512, .f32⟩
  | .hbm, ⟨56, _⟩ => ⟨S64x1x512, .f32⟩
  | .hbm, ⟨57, _⟩ => ⟨S64x512x512, .f32⟩
  | .hbm, ⟨58, _⟩ => ⟨S64x512x512, .f32⟩
  | .hbm, ⟨59, _⟩ => ⟨S_, .f32⟩
  | .hbm, ⟨60, _⟩ => ⟨S64x512, .f32⟩
  | .hbm, ⟨61, _⟩ => ⟨S_, .f32⟩
  | .hbm, ⟨62, _⟩ => ⟨S64x512, .f32⟩
  | .hbm, ⟨63, _⟩ => ⟨S64x512, .f32⟩
  | .hbm, ⟨64, _⟩ => ⟨S64x512x1, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S_, .f32⟩
  | .hbm, ⟨69, _⟩ => ⟨S64x512, .f32⟩
  | .hbm, ⟨70, _⟩ => ⟨S64x512x1, .f32⟩
  | .hbm, ⟨71, _⟩ => ⟨S64x512x512, .f32⟩
  | .hbm, ⟨72, _⟩ => ⟨S64x512x512, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_4 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  bcast_S64x512x1_S64x512x512_0_1_2 : S64x512x1.BroadcastsInDim S64x512x512 (![0, 1, 2] : Fin 3 → Fin S64x512x512.rank)
  bcast_S_S64x512x512 : S_.BroadcastsInDim S64x512x512 (![] : Fin 0 → Fin S64x512x512.rank)
  shapeCasts_S64x512x512_S64x512x512x1 : S64x512x512.ShapeCasts S64x512x512x1
  bcast_S_S64x512x512x1 : S_.BroadcastsInDim S64x512x512x1 (![] : Fin 0 → Fin S64x512x512x1.rank)
  bcast_S1_S1x1x1x1_3 : S1.BroadcastsInDim S1x1x1x1 (![3] : Fin 1 → Fin S1x1x1x1.rank)
  bcast_S1x1x1x1_S64x512x512x1_0_1_2_3 : S1x1x1x1.BroadcastsInDim S64x512x512x1 (![0, 1, 2, 3] : Fin 4 → Fin S64x512x512x1.rank)
  reducesTo_S64x512x512x1_S64x512x512_d3 : S64x512x512x1.ReducesTo [3] S64x512x512
  h_S_ : 0 < S_.numel
  bcast_S_S64x1x512 : S_.BroadcastsInDim S64x1x512 (![] : Fin 0 → Fin S64x1x512.rank)
  reducesTo_S64x512x512_S64x512_d2 : S64x512x512.ReducesTo [2] S64x512
  gather_S50000x101_S64x512x1_S64x512x101_2_0_n_n_0_2_1101_wf : GatherDims.WF S50000x101 S64x512x1 S64x512x101 [2] [0] [] [0] [] 2 ![1, 101]
  gather_S64x512x101_S64x512x512x1_S64x512x512_n_2_01_01_2_3_111_wf : GatherDims.WF S64x512x101 S64x512x512x1 S64x512x512 [] [2] [0, 1] [2] [0, 1] 3 ![1, 1, 1]

variable [Facts₀]

def gather_S50000x101_S64x512x1_S64x512x101_2_0_n_n_0_2_1101 : GatherDims S50000x101 S64x512x1 S64x512x101 where
  offsetDims := [2]
  collapsedSliceDims := [0]
  operandBatchingDims := []
  startIndicesBatchingDims := []
  startIndexMap := [0]
  indexVectorDim := 2
  sliceSizes := ![1, 101]
  wf := gather_S50000x101_S64x512x1_S64x512x101_2_0_n_n_0_2_1101_wf
def gather_S64x512x101_S64x512x512x1_S64x512x512_n_2_01_01_2_3_111 : GatherDims S64x512x101 S64x512x512x1 S64x512x512 where
  offsetDims := []
  collapsedSliceDims := [2]
  operandBatchingDims := [0, 1]
  startIndicesBatchingDims := [0, 1]
  startIndexMap := [2]
  indexVectorDim := 3
  sliceSizes := ![1, 1, 1]
  wf := gather_S64x512x101_S64x512x512x1_S64x512x512_n_2_01_01_2_3_111_wf

class Facts : Prop extends Facts₀ where

variable [Facts]
-- ==== Proof.Spec.lean ====
/-
  Attention over a window of time differences, as one function of the arrays.

  For a batch row `b`, a target position `t` and a context position `c`, the difference of the context time and the
  target time is clamped to [-50, 50] and shifted by 50: a position `w` in a window of 101 columns.  The logit is the
  embedding row of `(b, t)` read at column `w`, plus the mask word of `(b, c)` converted to a float times the constant
  -1e9.  The result is the softmax of the logits over `c`: the exponential of the logit minus the row's maximum,
  divided by the sum of those exponentials over the row.  Everything on the extended reals; the integer arithmetic on
  32-bit words, as both programs do it.
-/
import Idealize.ShloMosaic.PureOps.Ideal
import Idealize.ShloMosaic.PureOps.Ideal.Laws
import Idealize.ShloMosaic.Lib.ValueIdx
import Idealize.ShloMosaic.Lib.WordArith
import Idealize.ShloMosaic.Lib.StableHlo.Predicate

noncomputable section

namespace Cert.TimeWindow

open Idealize.ShloMosaic Idealize.ShloMosaic.ValueIdx

/-! ## The window position -/

/-- The window position of a context time against a target time: their difference as 32-bit words, clamped (signed)
    below at -50 and above at 50, plus 50. -/
def wpos (ct tt : BitVec 32) : BitVec 32 :=
  IntOp.addi (IntOp.minsi 50#32 (IntOp.maxsi 4294967246#32 (IntOp.subi ct tt))) 50#32

/-- A signed clamp to [-50, 50] shifted by 50 lies in [0, 100], whatever the word clamped. -/
theorem clamp_shift_toNat_le (d : BitVec 32) :
    (IntOp.addi (IntOp.minsi 50#32 (IntOp.maxsi 4294967246#32 d)) 50#32).toNat ≤ 100 := by
  unfold IntOp.addi IntOp.minsi IntOp.maxsi
  have hm : (4294967246#32 : BitVec 32).toInt = -50 := by decide
  have h50 : (50#32 : BitVec 32).toInt = 50 := by decide
  by_cases h1 : d.slt 4294967246#32 = true
  · rw [if_pos h1]; decide
  · rw [if_neg h1]
    by_cases h2 : (50#32 : BitVec 32).slt d = true
    · rw [if_pos h2]; decide
    · rw [if_neg h2]
      rw [BitVec.slt_iff_toInt_lt, hm] at h1
      rw [BitVec.slt_iff_toInt_lt, h50] at h2
      have hs : (d + 50#32).toInt = d.toInt + (50#32 : BitVec 32).toInt :=
        WordArith.toInt_add_of_bounds d 50#32 (by rw [h50]; omega) (by rw [h50]; omega)
      rw [h50] at hs
      have e := BitVec.toInt_eq_toNat_cond (d + 50#32)
      have hlt := (d + 50#32).isLt
      omega

theorem wpos_toNat_le (ct tt : BitVec 32) : (wpos ct tt).toNat ≤ 100 := clamp_shift_toNat_le _

/-- The window position as a column of the 101-column embedding row. -/
def wfin (ct tt : BitVec 32) : Fin 101 := ⟨(wpos ct tt).toNat, Nat.lt_succ_of_le (wpos_toNat_le ct tt)⟩

/-- A word that is at most 100 as a natural number reads signed as that number. -/
theorem toInt_of_toNat_le {x : BitVec 32} (h : x.toNat ≤ 100) : x.toInt = (x.toNat : Int) := by
  have e := BitVec.toInt_eq_toNat_cond x
  omega

/-- A word at most 100 equals the word of a number below 2^32 exactly when its value is that number. -/
theorem eq_ofNat_iff {x : BitVec 32} (w : Nat) (hw : w < 2 ^ 32) : x = BitVec.ofNat 32 w ↔ x.toNat = w := by
  constructor
  · intro h; rw [h, BitVec.toNat_ofNat]; exact Nat.mod_eq_of_lt hw
  · intro h; apply BitVec.eq_of_toNat_eq; rw [BitVec.toNat_ofNat, h]; exact (Nat.mod_eq_of_lt hw).symm

/-! ## One row of attention -/

/-- The logits of one (batch row, target position): for each context position the embedding row at the window
    position, plus the mask word as a float times -1e9 (the pattern `0xCE6E6B28`). -/
def logitRow (e : Fin 101 → EReal) (tt : BitVec 32) (ct mk : Fin 512 → BitVec 32) (c : Fin 512) : EReal :=
  e (wfin (ct c) tt) + (FloatOps.sitofp (F := Ideal) .f32 (mk c) : Ideal .f32) * Ideal.ofBits .f32 0xCE6E6B28#32

/-- A row's maximum: the fold of `max` from -∞ (the pattern `0xFF800000`) over the 512 context positions. -/
def rowMax (L : Fin 512 → EReal) : EReal :=
  (Finset.univ : Finset (Fin 512)).fold max (Ideal.ofBits .f32 0xFF800000#32) L

/-- The softmax of a row at a position. -/
def softRow (L : Fin 512 → EReal) (c : Fin 512) : EReal :=
  Ideal.div (Ideal.exp (L c - rowMax L)) (∑ k : Fin 512, Ideal.exp (L k - rowMax L))

/-! ## The whole array -/

/-- The attention weights `[64, 512, 512]` of the embedding rows `[64, 512, 101]`, the target times, the context
    times and the mask (each `[64, 512]`). -/
def attn (emb : (⟨3, ![64, 512, 101]⟩ : Shape).Idx → EReal) (tt ct mk : (⟨2, ![64, 512]⟩ : Shape).Idx → BitVec 32) :
    (⟨3, ![64, 512, 512]⟩ : Shape).Idx → EReal := fun i =>
  let b : Fin 64 := i 0
  let t : Fin 512 := i 1
  let c : Fin 512 := i 2
  softRow (logitRow (fun w => emb (ix3 b t w)) (tt (ix2 b t)) (fun c' => ct (ix2 b c')) (fun c' => mk (ix2 b c'))) c

theorem attn_apply (emb : (⟨3, ![64, 512, 101]⟩ : Shape).Idx → EReal) (tt ct mk : (⟨2, ![64, 512]⟩ : Shape).Idx → BitVec 32)
    (b : Fin 64) (t : Fin 512) (c : Fin 512) :
    attn emb tt ct mk (ix3 b t c)
      = softRow (logitRow (fun w => emb (ix3 b t w)) (tt (ix2 b t)) (fun c' => ct (ix2 b c')) (fun c' => mk (ix2 b c'))) c := rfl

end Cert.TimeWindow

end
-- ==== Proof.Scan.lean ====
/-
  The window scan of the kernel body.  The body builds the logits by 101 selects: for each window column `w`, where the
  position word equals `w` it takes the embedding block's column `w` (sliced out, squeezed, re-expanded and broadcast
  along the context axis), elsewhere it keeps what it had.  After the step for column `w` the accumulator holds the
  embedding entry at the position wherever the position is at most `w`: the invariant `Scanned`.
-/
import proofs.«417531_j38345468019460_2_alg».proof.Proof.Gen.KernelIdeal.Skeleton
import proofs.«417531_j38345468019460_2_alg».proof.Proof.Spec
import Idealize.ShloMosaic.Lib.Pipeline.Value
import Idealize.ShloMosaic.Lib.ValueLayout

noncomputable section

namespace Cert.KernelIdeal.Scan

open Cert.KernelIdeal Cert.KernelIdeal.Gen Cert.TimeWindow Idealize.ShloMosaic Idealize.ShloMosaic.ValueIdx

/-- Wherever the position word is below `n` (and inside the 101 columns), `acc` holds the embedding block's entry of
    that (row, target) at the position's column. -/
def Scanned (n : Nat) (v5 : FVec Ideal S8x128x101 .f32) (v16 : IVec S8x128x512 32) (acc : FVec Ideal S8x128x512 .f32) : Prop :=
  ∀ (p : Fin 8) (q : Fin 128) (r : Fin 512) (h : (v16 (ix3 p q r)).toNat < 101), (v16 (ix3 p q r)).toNat < n →
    acc (ix3 p q r) = v5 (ix3 p q ⟨(v16 (ix3 p q r)).toNat, h⟩)

/-- Before any step nothing is claimed. -/
theorem Scanned.zero (v5 : FVec Ideal S8x128x101 .f32) (v16 : IVec S8x128x512 32) (acc : FVec Ideal S8x128x512 .f32) :
    Scanned 0 v5 v16 acc := fun _ _ _ _ h => absurd h (Nat.not_lt_zero _)

/-- The slab of column `w`: the embedding block sliced at column `w`, squeezed, re-expanded and broadcast along the context
    axis reads, at `(p, q, r)`, the embedding entry `(p, q, w)`.  The broadcast reads the unit axis at 0, the three shape
    casts keep the row-major position `p * 128 + q`, and the slice shifts the last coordinate by `w`. -/
theorem slab_apply {w : Nat} (hw : w < 101) (hs : S8x128x101.Slices ![0, 0, w] S8x128x1)
    (v5 : FVec Ideal S8x128x101 .f32) (p : Fin 8) (q : Fin 128) (r : Fin 512) :
    broadcastTo S8x128x512
        (shapeCast S8x128x1
          (shapeCast S8x128x1
            (shapeCast S8x128 (extractStridedSlice S8x128x1 ![0, 0, w] v5 hs) shapeCasts_S8x128x1_S8x128)
            shapeCasts_S8x128_S8x128x1)
          shapeCasts_S8x128x1_S8x128x1)
        broadcasts_S8x128x1_S8x128x512 (ix3 p q r) = v5 (ix3 p q ⟨w, hw⟩) := by
  refine (broadcastTo_apply _ _ (ix3 p q r) (ix3 p q (0 : Fin 1)) ?_).trans ?_
  · intro a
    match a with
    | ⟨0, _⟩ => rfl
    | ⟨1, _⟩ => rfl
    | ⟨2, _⟩ => rfl
  rw [shapeCast_self]
  refine (shapeCast_apply _ _ (ix3 p q (0 : Fin 1)) (ix2 p q) ?_).trans ?_
  · rw [Shape.rowMajor_val_two, Shape.rowMajor_val_three]
    show p.val * 128 + q.val = (p.val * 128 + q.val) * 1 + 0
    omega
  refine (shapeCast_apply _ _ (ix2 p q) (ix3 p q (0 : Fin 1)) ?_).trans ?_
  · rw [Shape.rowMajor_val_two, Shape.rowMajor_val_three]
    show (p.val * 128 + q.val) * 1 + 0 = p.val * 128 + q.val
    omega
  exact extractStridedSlice_apply _ _ _ (ix3 p q (0 : Fin 1)) (ix3 p q ⟨w, hw⟩) (fun a => by
    match a with
    | ⟨0, _⟩ => exact (Nat.zero_add _).symm
    | ⟨1, _⟩ => exact (Nat.zero_add _).symm
    | ⟨2, _⟩ => rfl)

/-- One step of the scan, for column `w`. -/
theorem Scanned.step {w : Nat} (hw : w < 101) (hs : S8x128x101.Slices ![0, 0, w] S8x128x1)
    {v5 : FVec Ideal S8x128x101 .f32} {v16 : IVec S8x128x512 32} {acc : FVec Ideal S8x128x512 .f32}
    (h : Scanned w v5 v16 acc) :
    Scanned (w + 1) v5 v16
      (select (cmpi .eq v16 (broadcast S8x128x512 (BitVec.ofNat 32 w)))
        (broadcastTo S8x128x512
          (shapeCast S8x128x1
            (shapeCast S8x128x1
              (shapeCast S8x128 (extractStridedSlice S8x128x1 ![0, 0, w] v5 hs) shapeCasts_S8x128x1_S8x128)
              shapeCasts_S8x128_S8x128x1)
            shapeCasts_S8x128x1_S8x128x1)
          broadcasts_S8x128x1_S8x128x512)
        acc) := by
  intro p q r hlt hle
  rw [select_apply]
  show Scalar.select (IntOp.cmpi .eq (v16 (ix3 p q r)) (BitVec.ofNat 32 w)) _ _ = _
  by_cases hv : (v16 (ix3 p q r)).toNat = w
  · -- the position is `w`: the compare bit is 1 and the slab's entry is the embedding entry at the position
    have hb : IntOp.cmpi .eq (v16 (ix3 p q r)) (BitVec.ofNat 32 w) = 1#1 :=
      StableHlo.Predicate.cmpi_eq_iff.2 ((eq_ofNat_iff w (by omega)).2 hv)
    rw [hb, select_one, slab_apply hw hs]
    exact congrArg v5 (congrArg (ix3 p q) (Fin.ext hv.symm))
  · -- the position is below `w`: the compare bit is 0 and the accumulator is kept
    have hb : IntOp.cmpi .eq (v16 (ix3 p q r)) (BitVec.ofNat 32 w) = 0#1 :=
      eq_zero_of_ne_one (fun h1 => hv ((eq_ofNat_iff w (by omega)).1 (StableHlo.Predicate.cmpi_eq_iff.1 h1)))
    rw [hb, select_zero]
    exact h p q r hlt (by omega)

/-! ## The body's payloads, one after another

Each payload that ends in a select is a run of consecutive steps of the scan; the small payloads between them carry a
step's compare or its sliced column into the next one. -/

section Payloads
variable {v5 : FVec Ideal S8x128x101 .f32} {v16 : IVec S8x128x512 32} {acc : FVec Ideal S8x128x512 .f32}

/-- Columns 0 to 2, from the zero block. -/
theorem scanned_pay4 (v0 : Vec Ideal S8x128 .i32) (v1 : Vec Ideal S8x512 .i32) (v4 : Vec Ideal S8x128x101 .f32) :
    Scanned 3 (k0_pay2 v4) (k0_pay3 v0 v1) (k0_pay4 v0 v1 v4) := by
  unfold k0_pay4
  exact Scanned.step (w := 2) (by decide) _ (Scanned.step (w := 1) (by decide) _
    (Scanned.step (w := 0) (by decide) _ (Scanned.zero _ _ _)))

/-- Columns 3 to 8. -/
theorem scanned_pay5 (h : Scanned 3 v5 v16 acc) : Scanned 9 v5 v16 (k0_pay5 v5 v16 acc) := by
  unfold k0_pay5
  exact Scanned.step (w := 8) (by decide) _ (Scanned.step (w := 7) (by decide) _
    (Scanned.step (w := 6) (by decide) _ (Scanned.step (w := 5) (by decide) _
    (Scanned.step (w := 4) (by decide) _ (Scanned.step (w := 3) (by decide) _ h)))))

/-- Columns 9 to 15; column 9's compare and sliced column come in from the two small payloads before. -/
theorem scanned_pay8 (h : Scanned 9 v5 v16 acc) :
    Scanned 16 v5 v16 (k0_pay8 v5 v16 acc (k0_pay6 v16) (k0_pay7 v5)) := by
  unfold k0_pay8 k0_pay6 k0_pay7
  exact Scanned.step (w := 15) (by decide) _ (Scanned.step (w := 14) (by decide) _
    (Scanned.step (w := 13) (by decide) _ (Scanned.step (w := 12) (by decide) _
    (Scanned.step (w := 11) (by decide) _ (Scanned.step (w := 10) (by decide) _
    (Scanned.step (w := 9) (by decide) _ h))))))

/-- Columns 16 to 22; column 16's squeezed column and its number come in as arguments. -/
theorem scanned_pay10 (h : Scanned 16 v5 v16 acc) :
    Scanned 23 v5 v16 (k0_pay10 v5 v16 acc (k0_pay9 v5) 16#32) := by
  unfold k0_pay10 k0_pay9
  exact Scanned.step (w := 22) (by decide) _ (Scanned.step (w := 21) (by decide) _
    (Scanned.step (w := 20) (by decide) _ (Scanned.step (w := 19) (by decide) _
    (Scanned.step (w := 18) (by decide) _ (Scanned.step (w := 17) (by decide) _
    (Scanned.step (w := 16) (by decide) _ h))))))

/-- Columns 23 to 28. -/
theorem scanned_pay11 (h : Scanned 23 v5 v16 acc) : Scanned 29 v5 v16 (k0_pay11 v5 v16 acc) := by
  unfold k0_pay11
  exact Scanned.step (w := 28) (by decide) _ (Scanned.step (w := 27) (by decide) _
    (Scanned.step (w := 26) (by decide) _ (Scanned.step (w := 25) (by decide) _
    (Scanned.step (w := 24) (by decide) _ (Scanned.step (w := 23) (by decide) _ h)))))

/-- Columns 29 to 35. -/
theorem scanned_pay14 (h : Scanned 29 v5 v16 acc) :
    Scanned 36 v5 v16 (k0_pay14 v5 v16 acc (k0_pay12 v16) (k0_pay13 v5)) := by
  unfold k0_pay14 k0_pay12 k0_pay13
  exact Scanned.step (w := 35) (by decide) _ (Scanned.step (w := 34) (by decide) _
    (Scanned.step (w := 33) (by decide) _ (Scanned.step (w := 32) (by decide) _
    (Scanned.step (w := 31) (by decide) _ (Scanned.step (w := 30) (by decide) _
    (Scanned.step (w := 29) (by decide) _ h))))))

/-- Columns 36 to 42. -/
theorem scanned_pay16 (h : Scanned 36 v5 v16 acc) :
    Scanned 43 v5 v16 (k0_pay16 v5 v16 acc (k0_pay15 v5) 36#32) := by
  unfold k0_pay16 k0_pay15
  exact Scanned.step (w := 42) (by decide) _ (Scanned.step (w := 41) (by decide) _
    (Scanned.step (w := 40) (by decide) _ (Scanned.step (w := 39) (by decide) _
    (Scanned.step (w := 38) (by decide) _ (Scanned.step (w := 37) (by decide) _
    (Scanned.step (w := 36) (by decide) _ h))))))

/-- Columns 43 to 48. -/
theorem scanned_pay17 (h : Scanned 43 v5 v16 acc) : Scanned 49 v5 v16 (k0_pay17 v5 v16 acc) := by
  unfold k0_pay17
  exact Scanned.step (w := 48) (by decide) _ (Scanned.step (w := 47) (by decide) _
    (Scanned.step (w := 46) (by decide) _ (Scanned.step (w := 45) (by decide) _
    (Scanned.step (w := 44) (by decide) _ (Scanned.step (w := 43) (by decide) _ h)))))

/-- Columns 49 to 55. -/
theorem scanned_pay20 (h : Scanned 49 v5 v16 acc) :
    Scanned 56 v5 v16 (k0_pay20 v5 v16 acc (k0_pay18 v16) (k0_pay19 v5)) := by
  unfold k0_pay20 k0_pay18 k0_pay19
  exact Scanned.step (w := 55) (by decide) _ (Scanned.step (w := 54) (by decide) _
    (Scanned.step (w := 53) (by decide) _ (Scanned.step (w := 52) (by decide) _
    (Scanned.step (w := 51) (by decide) _ (Scanned.step (w := 50) (by decide) _
    (Scanned.step (w := 49) (by decide) _ h))))))

/-- Columns 56 to 62. -/
theorem scanned_pay22 (h : Scanned 56 v5 v16 acc) :
    Scanned 63 v5 v16 (k0_pay22 v5 v16 acc (k0_pay21 v5) 56#32) := by
  unfold k0_pay22 k0_pay21
  exact Scanned.step (w := 62) (by decide) _ (Scanned.step (w := 61) (by decide) _
    (Scanned.step (w := 60) (by decide) _ (Scanned.step (w := 59) (by decide) _
    (Scanned.step (w := 58) (by decide) _ (Scanned.step (w := 57) (by decide) _
    (Scanned.step (w := 56) (by decide) _ h))))))

/-- Columns 63 to 68. -/
theorem scanned_pay23 (h : Scanned 63 v5 v16 acc) : Scanned 69 v5 v16 (k0_pay23 v5 v16 acc) := by
  unfold k0_pay23
  exact Scanned.step (w := 68) (by decide) _ (Scanned.step (w := 67) (by decide) _
    (Scanned.step (w := 66) (by decide) _ (Scanned.step (w := 65) (by decide) _
    (Scanned.step (w := 64) (by decide) _ (Scanned.step (w := 63) (by decide) _ h)))))

/-- Columns 69 to 75. -/
theorem scanned_pay26 (h : Scanned 69 v5 v16 acc) :
    Scanned 76 v5 v16 (k0_pay26 v5 v16 acc (k0_pay24 v16) (k0_pay25 v5)) := by
  unfold k0_pay26 k0_pay24 k0_pay25
  exact Scanned.step (w := 75) (by decide) _ (Scanned.step (w := 74) (by decide) _
    (Scanned.step (w := 73) (by decide) _ (Scanned.step (w := 72) (by decide) _
    (Scanned.step (w := 71) (by decide) _ (Scanned.step (w := 70) (by decide) _
    (Scanned.step (w := 69) (by decide) _ h))))))

/-- Columns 76 to 82. -/
theorem scanned_pay28 (h : Scanned 76 v5 v16 acc) :
    Scanned 83 v5 v16 (k0_pay28 v5 v16 acc (k0_pay27 v5) 76#32) := by
  unfold k0_pay28 k0_pay27
  exact Scanned.step (w := 82) (by decide) _ (Scanned.step (w := 81) (by decide) _
    (Scanned.step (w := 80) (by decide) _ (Scanned.step (w := 79) (by decide) _
    (Scanned.step (w := 78) (by decide) _ (Scanned.step (w := 77) (by decide) _
    (Scanned.step (w := 76) (by decide) _ h))))))

/-- Columns 83 to 88. -/
theorem scanned_pay29 (h : Scanned 83 v5 v16 acc) : Scanned 89 v5 v16 (k0_pay29 v5 v16 acc) := by
  unfold k0_pay29
  exact Scanned.step (w := 88) (by decide) _ (Scanned.step (w := 87) (by decide) _
    (Scanned.step (w := 86) (by decide) _ (Scanned.step (w := 85) (by decide) _
    (Scanned.step (w := 84) (by decide) _ (Scanned.step (w := 83) (by decide) _ h)))))

/-- Columns 89 to 95. -/
theorem scanned_pay32 (h : Scanned 89 v5 v16 acc) :
    Scanned 96 v5 v16 (k0_pay32 v5 v16 acc (k0_pay30 v16) (k0_pay31 v5)) := by
  unfold k0_pay32 k0_pay30 k0_pay31
  exact Scanned.step (w := 95) (by decide) _ (Scanned.step (w := 94) (by decide) _
    (Scanned.step (w := 93) (by decide) _ (Scanned.step (w := 92) (by decide) _
    (Scanned.step (w := 91) (by decide) _ (Scanned.step (w := 90) (by decide) _
    (Scanned.step (w := 89) (by decide) _ h))))))

end Payloads

/-- The accumulator the last part of the body receives: columns 0 to 95 scanned. -/
theorem scanned_96 (v4 : Vec Ideal S8x128x101 .f32) (v0 : Vec Ideal S8x128 .i32) (v1 : Vec Ideal S8x512 .i32) :
    Scanned 96 (k0_pay2 v4) (k0_pay3 v0 v1)
      (k0_pay32 (k0_pay2 v4) (k0_pay3 v0 v1) (k0_pay29 (k0_pay2 v4) (k0_pay3 v0 v1) (k0_pay28 (k0_pay2 v4) (k0_pay3 v0 v1) (k0_pay26 (k0_pay2 v4) (k0_pay3 v0 v1) (k0_pay23 (k0_pay2 v4) (k0_pay3 v0 v1) (k0_pay22 (k0_pay2 v4) (k0_pay3 v0 v1) (k0_pay20 (k0_pay2 v4) (k0_pay3 v0 v1) (k0_pay17 (k0_pay2 v4) (k0_pay3 v0 v1) (k0_pay16 (k0_pay2 v4) (k0_pay3 v0 v1) (k0_pay14 (k0_pay2 v4) (k0_pay3 v0 v1) (k0_pay11 (k0_pay2 v4) (k0_pay3 v0 v1) (k0_pay10 (k0_pay2 v4) (k0_pay3 v0 v1) (k0_pay8 (k0_pay2 v4) (k0_pay3 v0 v1) (k0_pay5 (k0_pay2 v4) (k0_pay3 v0 v1) (k0_pay4 v0 v1 v4)) (k0_pay6 (k0_pay3 v0 v1)) (k0_pay7 (k0_pay2 v4))) (k0_pay9 (k0_pay2 v4)) 16#32)) (k0_pay12 (k0_pay3 v0 v1)) (k0_pay13 (k0_pay2 v4))) (k0_pay15 (k0_pay2 v4)) 36#32)) (k0_pay18 (k0_pay3 v0 v1)) (k0_pay19 (k0_pay2 v4))) (k0_pay21 (k0_pay2 v4)) 56#32)) (k0_pay24 (k0_pay3 v0 v1)) (k0_pay25 (k0_pay2 v4))) (k0_pay27 (k0_pay2 v4)) 76#32)) (k0_pay30 (k0_pay3 v0 v1)) (k0_pay31 (k0_pay2 v4))) := by
  exact scanned_pay32 (scanned_pay29 (scanned_pay28 (scanned_pay26 (scanned_pay23 (scanned_pay22 (scanned_pay20
    (scanned_pay17 (scanned_pay16 (scanned_pay14 (scanned_pay11 (scanned_pay10 (scanned_pay8 (scanned_pay5
    (scanned_pay4 v0 v1 v4))))))))))))))

end Cert.KernelIdeal.Scan

end
-- ==== Proof.Block.lean ====
/-
  One block of the kernel's output, entry by entry.  The body loads the embedding block [8, 128, 101], the target times
  [8, 128], the context times [8, 512] and the mask [8, 512], and stores the block [8, 128, 512] of attention weights:
  at (p, q, r) the softmax, over the context axis, of the logits of row p and target q.
-/
import proofs.«417531_j38345468019460_2_alg».proof.Proof.Gen.KernelIdeal.Skeleton
import proofs.«417531_j38345468019460_2_alg».proof.Proof.Spec
import proofs.«417531_j38345468019460_2_alg».proof.Proof.Scan
import Idealize.ShloMosaic.Lib.Pipeline.Value
import Idealize.ShloMosaic.Lib.ValueLayout
import Idealize.ShloMosaic.PureOps.Ideal.Laws

noncomputable section

namespace Cert.KernelIdeal.Block

open Cert.KernelIdeal Cert.KernelIdeal.Gen Cert.KernelIdeal.Scan Cert.TimeWindow Idealize.ShloMosaic Idealize.ShloMosaic.ValueIdx

/-! ## Layout reads -/

section Layout
variable {α : Type}

/-- A [8, 128, 1] array broadcast along the context axis reads, at (p, q, r), the array at (p, q, 0). -/
theorem bto_col (Y : S8x128x1.Idx → α) (p : Fin 8) (q : Fin 128) (r : Fin 512) :
    broadcastTo S8x128x512 Y broadcasts_S8x128x1_S8x128x512 (ix3 p q r) = Y (ix3 p q (0 : Fin 1)) :=
  broadcastTo_apply _ _ (ix3 p q r) (ix3 p q (0 : Fin 1)) fun ax =>
    match ax with
    | ⟨0, _⟩ => rfl
    | ⟨1, _⟩ => rfl
    | ⟨2, _⟩ => rfl

/-- A [8, 128] array given a trailing unit axis reads, at (p, q, u), the array at (p, q). -/
theorem cast_col (X : S8x128.Idx → α) (p : Fin 8) (q : Fin 128) (u : Fin 1) :
    shapeCast S8x128x1 X shapeCasts_S8x128_S8x128x1 (ix3 p q u) = X (ix2 p q) :=
  shapeCast_apply X _ _ (ix2 p q) (by
    have hu : u.val = 0 := by omega
    rw [Shape.rowMajor_val_two, Shape.rowMajor_val_three]
    show p.val * 128 + q.val = (p.val * 128 + q.val) * 1 + u.val
    omega)

/-- A [8, 128] array given a trailing unit axis and broadcast along the context axis reads, at (p, q, r), the array
    at (p, q). -/
theorem bcast_col (X : S8x128.Idx → α) (p : Fin 8) (q : Fin 128) (r : Fin 512) :
    broadcastTo S8x128x512 (shapeCast S8x128x1 X shapeCasts_S8x128_S8x128x1) broadcasts_S8x128x1_S8x128x512 (ix3 p q r)
      = X (ix2 p q) :=
  (bto_col _ p q r).trans (cast_col X p q 0)

/-- A [8, 1, 512] array broadcast along the target axis reads, at (p, q, r), the array at (p, 0, r). -/
theorem bto_row (Y : S8x1x512.Idx → α) (p : Fin 8) (q : Fin 128) (r : Fin 512) :
    broadcastTo S8x128x512 Y broadcasts_S8x1x512_S8x128x512 (ix3 p q r) = Y (ix3 p (0 : Fin 1) r) :=
  broadcastTo_apply _ _ (ix3 p q r) (ix3 p (0 : Fin 1) r) fun ax =>
    match ax with
    | ⟨0, _⟩ => rfl
    | ⟨1, _⟩ => rfl
    | ⟨2, _⟩ => rfl

/-- A [8, 512] array given a middle unit axis reads, at (p, u, r), the array at (p, r). -/
theorem cast_row (X : S8x512.Idx → α) (p : Fin 8) (u : Fin 1) (r : Fin 512) :
    shapeCast S8x1x512 X shapeCasts_S8x512_S8x1x512 (ix3 p u r) = X (ix2 p r) :=
  shapeCast_apply X _ _ (ix2 p r) (by
    have hu : u.val = 0 := by omega
    rw [Shape.rowMajor_val_two, Shape.rowMajor_val_three]
    show p.val * 512 + r.val = (p.val * 1 + u.val) * 512 + r.val
    omega)

/-- A [8, 512] array given a middle unit axis and broadcast along the target axis reads, at (p, q, r), the array
    at (p, r). -/
theorem bcast_row (X : S8x512.Idx → α) (p : Fin 8) (q : Fin 128) (r : Fin 512) :
    broadcastTo S8x128x512 (shapeCast S8x1x512 X shapeCasts_S8x512_S8x1x512) broadcasts_S8x1x512_S8x128x512 (ix3 p q r)
      = X (ix2 p r) :=
  (bto_row _ p q r).trans (cast_row X p 0 r)

end Layout

/-- The index over (p, q) with the context coordinate k put back on the reduced axis. -/
theorem lift_ix (p : Fin 8) (q : Fin 128) (k : Fin 512) :
    reduces_S8x128x512_S8x128.lift (ix2 p q) k = ix3 p q k := by
  funext a
  apply Fin.ext
  match a with
  | ⟨0, _⟩ => rfl
  | ⟨1, _⟩ => rfl
  | ⟨2, _⟩ => rfl

/-! ## The position words -/

/-- The position word at (p, q, r) is the window position of the context time of (p, r) against the target time of
    (p, q): the subtraction, the two clamps and the shift act entry by entry on the two broadcast time arrays. -/
theorem pay3_apply (v0 : Vec Ideal S8x128 .i32) (v1 : Vec Ideal S8x512 .i32) (p : Fin 8) (q : Fin 128) (r : Fin 512) :
    k0_pay3 v0 v1 (ix3 p q r) = wpos (v1 (ix2 p r)) (v0 (ix2 p q)) := by
  unfold k0_pay3 wpos
  show IntOp.addi (IntOp.minsi 50#32 (IntOp.maxsi 4294967246#32 (IntOp.subi
      (broadcastTo S8x128x512 (shapeCast S8x1x512 v1 shapeCasts_S8x512_S8x1x512) broadcasts_S8x1x512_S8x128x512 (ix3 p q r))
      (broadcastTo S8x128x512 (shapeCast S8x128x1 v0 shapeCasts_S8x128_S8x128x1) broadcasts_S8x128x1_S8x128x512 (ix3 p q r))))) 50#32 = _
  rw [bcast_row, bcast_col]

/-! ## The softmax tail -/

/-- The last ten operations of the body, as a function of the logits block. -/
def tail (L : FVec Ideal S8x128x512 .f32) : FVec Ideal S8x128x512 .f32 :=
  have v831 : FVec Ideal S8x128 .f32 := multiReduction .maximumf [2] S8x128 L 0xFF800000#32 reduces_S8x128x512_S8x128 (.inl rfl) rfl
  have v832 : FVec Ideal S8x128x1 .f32 := shapeCast S8x128x1 v831 shapeCasts_S8x128_S8x128x1
  have v833 : FVec Ideal S8x128x512 .f32 := broadcastTo S8x128x512 v832 broadcasts_S8x128x1_S8x128x512
  have v834 : FVec Ideal S8x128x512 .f32 := subf L v833
  have v835 : FVec Ideal S8x128x512 .f32 := exp v834
  have v836 : FVec Ideal S8x128 .f32 := multiReduction .add [2] S8x128 v835 0x00000000#32 reduces_S8x128x512_S8x128 (.inl rfl) rfl
  have v837 : FVec Ideal S8x128x1 .f32 := shapeCast S8x128x1 v836 shapeCasts_S8x128_S8x128x1
  have v838 : FVec Ideal S8x128x512 .f32 := broadcastTo S8x128x512 v837 broadcasts_S8x128x1_S8x128x512
  divf v835 v838

/-- The maximum over the context axis, at (p, q), is the row's maximum: the fold of `max` from -∞ over the 512 context
    positions. -/
theorem rowmax_apply (L : FVec Ideal S8x128x512 .f32) (p : Fin 8) (q : Fin 128) :
    multiReduction .maximumf [2] S8x128 L 0xFF800000#32 reduces_S8x128x512_S8x128 (.inl rfl) rfl (ix2 p q)
      = rowMax (fun c => L (ix3 p q c)) := by
  refine (Ideal.multiReduction_maximumf_single L _ reduces_S8x128x512_S8x128 _ _ (ix2 p q)).trans ?_
  have e : (L ∘ reduces_S8x128x512_S8x128.lift (ix2 p q)) = fun c : Fin 512 => L (ix3 p q c) :=
    funext fun c => congrArg L (lift_ix p q c)
  unfold rowMax
  exact congrArg (fun f : Fin 512 → EReal => (Finset.univ : Finset (Fin 512)).fold max (Ideal.ofBits .f32 0xFF800000#32) f) e

/-- The sum over the context axis, at (p, q), is the sum over the 512 context positions. -/
theorem rowsum_apply (E : FVec Ideal S8x128x512 .f32) (p : Fin 8) (q : Fin 128) :
    multiReduction .add [2] S8x128 E 0x00000000#32 reduces_S8x128x512_S8x128 (.inl rfl) rfl (ix2 p q)
      = ∑ k : Fin 512, E (ix3 p q k) := by
  refine (Ideal.multiReduction_add_single E _ reduces_S8x128x512_S8x128 _ _ (ix2 p q)).trans ?_
  exact Finset.sum_congr rfl fun k _ => congrArg E (lift_ix p q k)

/-- The softmax tail of any block, at (p, q, r), is the softmax of the block's row (p, q) at r: the exponential of
    the entry minus the row's maximum, divided by the sum of those exponentials over the row. -/
theorem tail_apply (L : FVec Ideal S8x128x512 .f32) (p : Fin 8) (q : Fin 128) (r : Fin 512) :
    tail L (ix3 p q r) = softRow (fun c => L (ix3 p q c)) r := by
  unfold tail softRow
  rw [divf_apply, bcast_col, rowsum_apply]
  show Ideal.div (Ideal.exp (L (ix3 p q r) - broadcastTo S8x128x512 (shapeCast S8x128x1 _ shapeCasts_S8x128_S8x128x1) broadcasts_S8x128x1_S8x128x512 (ix3 p q r))) _ = _
  rw [bcast_col, rowmax_apply]
  refine congrArg (Ideal.div _) (Finset.sum_congr rfl fun k _ => ?_)
  show Ideal.exp (L (ix3 p q k) - broadcastTo S8x128x512 (shapeCast S8x128x1 _ shapeCasts_S8x128_S8x128x1) broadcasts_S8x128x1_S8x128x512 (ix3 p q k)) = _
  rw [bcast_col, rowmax_apply]

/-! ## The body's last part, split: five select steps, the logits, the softmax tail -/

/-- One select step of the scan, for column `w`: where the position word is `w` the embedding block's column `w`,
    elsewhere the accumulator. -/
def scanStep (w : Nat) (hs : S8x128x101.Slices ![0, 0, w] S8x128x1) (v5 : FVec Ideal S8x128x101 .f32)
    (v16 : IVec S8x128x512 32) (acc : FVec Ideal S8x128x512 .f32) : FVec Ideal S8x128x512 .f32 :=
  select (cmpi .eq v16 (broadcast S8x128x512 (BitVec.ofNat 32 w)))
    (broadcastTo S8x128x512
      (shapeCast S8x128x1
        (shapeCast S8x128x1
          (shapeCast S8x128 (extractStridedSlice S8x128x1 ![0, 0, w] v5 hs) shapeCasts_S8x128x1_S8x128)
          shapeCasts_S8x128_S8x128x1)
        shapeCasts_S8x128x1_S8x128x1)
      broadcasts_S8x128x1_S8x128x512)
    acc

/-- The logits block: the accumulator after the steps for columns 96 to 100, plus the mask as a float times -1e9,
    broadcast along the target axis. -/
def logits (v3 : FVec Ideal S8x512 .f32) (v5 : FVec Ideal S8x128x101 .f32) (v16 : IVec S8x128x512 32)
    (v785 : FVec Ideal S8x128x512 .f32) : FVec Ideal S8x128x512 .f32 :=
  addf
    (scanStep 100 slices_S8x128x101_o0_0_100_S8x128x1 v5 v16
      (scanStep 99 slices_S8x128x101_o0_0_99_S8x128x1 v5 v16
        (scanStep 98 slices_S8x128x101_o0_0_98_S8x128x1 v5 v16
          (scanStep 97 slices_S8x128x101_o0_0_97_S8x128x1 v5 v16
            (scanStep 96 slices_S8x128x101_o0_0_96_S8x128x1 v5 v16 v785)))))
    (broadcastTo S8x128x512
      (mulf (shapeCast S8x1x512 v3 shapeCasts_S8x512_S8x1x512)
        (broadcast S8x1x512 (Scalar.ofBits (F := Ideal) .f32 0xCE6E6B28#32)))
      broadcasts_S8x1x512_S8x128x512)

/-- The body's last payload is the softmax tail of the logits block. -/
theorem pay34_eq (v3 : FVec Ideal S8x512 .f32) (v5 : FVec Ideal S8x128x101 .f32) (v16 : IVec S8x128x512 32)
    (v785 : FVec Ideal S8x128x512 .f32) :
    k0_pay34 v3 v5 v16 v785 (k0_pay33 v5) 96#32 = tail (logits v3 v5 v16 v785) := rfl

/-- The logits block at (p, q, c), when the accumulator handed in has columns 0 to 95 scanned and the position words
    are the window positions: the embedding entry at the window position, plus the mask term. -/
theorem logits_apply (v3 : FVec Ideal S8x512 .f32) (v5 : FVec Ideal S8x128x101 .f32) (v16 : IVec S8x128x512 32)
    (acc : FVec Ideal S8x128x512 .f32) (tt : Fin 8 → Fin 128 → BitVec 32) (ct : Fin 8 → Fin 512 → BitVec 32)
    (hv16 : ∀ p q r, v16 (ix3 p q r) = wpos (ct p r) (tt p q)) (h : Scanned 96 v5 v16 acc)
    (p : Fin 8) (q : Fin 128) (c : Fin 512) :
    logits v3 v5 v16 acc (ix3 p q c)
      = v5 (ix3 p q (wfin (ct p c) (tt p q))) + v3 (ix2 p c) * Ideal.ofBits .f32 0xCE6E6B28#32 := by
  have h97 : Scanned 97 v5 v16 (scanStep 96 slices_S8x128x101_o0_0_96_S8x128x1 v5 v16 acc) :=
    Scanned.step (w := 96) (by decide) slices_S8x128x101_o0_0_96_S8x128x1 h
  have h98 : Scanned 98 v5 v16 (scanStep 97 slices_S8x128x101_o0_0_97_S8x128x1 v5 v16 _) :=
    Scanned.step (w := 97) (by decide) slices_S8x128x101_o0_0_97_S8x128x1 h97
  have h99 : Scanned 99 v5 v16 (scanStep 98 slices_S8x128x101_o0_0_98_S8x128x1 v5 v16 _) :=
    Scanned.step (w := 98) (by decide) slices_S8x128x101_o0_0_98_S8x128x1 h98
  have h100 : Scanned 100 v5 v16 (scanStep 99 slices_S8x128x101_o0_0_99_S8x128x1 v5 v16 _) :=
    Scanned.step (w := 99) (by decide) slices_S8x128x101_o0_0_99_S8x128x1 h99
  have h101 : Scanned 101 v5 v16 (scanStep 100 slices_S8x128x101_o0_0_100_S8x128x1 v5 v16 _) :=
    Scanned.step (w := 100) (by decide) slices_S8x128x101_o0_0_100_S8x128x1 h100
  have hlt : (v16 (ix3 p q c)).toNat < 101 := by
    rw [hv16]; exact Nat.lt_succ_of_le (wpos_toNat_le _ _)
  have e1 : (⟨(v16 (ix3 p q c)).toNat, hlt⟩ : Fin 101) = wfin (ct p c) (tt p q) := by
    apply Fin.ext
    show (v16 (ix3 p q c)).toNat = (wpos (ct p c) (tt p q)).toNat
    rw [hv16]
  unfold logits
  rw [addf_apply, h101 p q c hlt hlt, e1, bto_row, mulf_apply, cast_row, broadcast_apply]
  rfl

/-! ## The stored block -/

/-- The value the body stores, as the payloads compose it from the four loaded blocks: `v4` the embedding block, `v0`
    the target times, `v1` the context times, `v2` the mask. -/
def stored (v4 : Vec Ideal S8x128x101 .f32) (v0 : Vec Ideal S8x128 .i32) (v1 v2 : Vec Ideal S8x512 .i32) : FVec Ideal S8x128x512 .f32 :=
  k0_pay34 (k0_pay1 v2) (k0_pay2 v4) (k0_pay3 v0 v1) (k0_pay32 (k0_pay2 v4) (k0_pay3 v0 v1) (k0_pay29 (k0_pay2 v4) (k0_pay3 v0 v1) (k0_pay28 (k0_pay2 v4) (k0_pay3 v0 v1) (k0_pay26 (k0_pay2 v4) (k0_pay3 v0 v1) (k0_pay23 (k0_pay2 v4) (k0_pay3 v0 v1) (k0_pay22 (k0_pay2 v4) (k0_pay3 v0 v1) (k0_pay20 (k0_pay2 v4) (k0_pay3 v0 v1) (k0_pay17 (k0_pay2 v4) (k0_pay3 v0 v1) (k0_pay16 (k0_pay2 v4) (k0_pay3 v0 v1) (k0_pay14 (k0_pay2 v4) (k0_pay3 v0 v1) (k0_pay11 (k0_pay2 v4) (k0_pay3 v0 v1) (k0_pay10 (k0_pay2 v4) (k0_pay3 v0 v1) (k0_pay8 (k0_pay2 v4) (k0_pay3 v0 v1) (k0_pay5 (k0_pay2 v4) (k0_pay3 v0 v1) (k0_pay4 v0 v1 v4)) (k0_pay6 (k0_pay3 v0 v1)) (k0_pay7 (k0_pay2 v4))) (k0_pay9 (k0_pay2 v4)) 16#32)) (k0_pay12 (k0_pay3 v0 v1)) (k0_pay13 (k0_pay2 v4))) (k0_pay15 (k0_pay2 v4)) 36#32)) (k0_pay18 (k0_pay3 v0 v1)) (k0_pay19 (k0_pay2 v4))) (k0_pay21 (k0_pay2 v4)) 56#32)) (k0_pay24 (k0_pay3 v0 v1)) (k0_pay25 (k0_pay2 v4))) (k0_pay27 (k0_pay2 v4)) 76#32)) (k0_pay30 (k0_pay3 v0 v1)) (k0_pay31 (k0_pay2 v4))) (k0_pay33 (k0_pay2 v4)) 96#32

/-- The stored block at (p, q, r): the softmax of the row's logits at r. -/
theorem stored_apply (v4 : Vec Ideal S8x128x101 .f32) (v0 : Vec Ideal S8x128 .i32) (v1 v2 : Vec Ideal S8x512 .i32)
    (p : Fin 8) (q : Fin 128) (r : Fin 512) :
    stored v4 v0 v1 v2 (ix3 p q r)
      = softRow (logitRow (fun w => v4 (ix3 p q w)) (v0 (ix2 p q)) (fun c => v1 (ix2 p c)) (fun c => v2 (ix2 p c))) r := by
  have e2 : k0_pay2 v4 = v4 := shapeCast_self v4 _
  unfold stored
  refine (congrFun (pay34_eq _ _ _ _) _).trans ?_
  refine (tail_apply _ p q r).trans ?_
  refine congrArg (fun L => softRow L r) (funext fun c => ?_)
  refine (logits_apply (k0_pay1 v2) (k0_pay2 v4) (k0_pay3 v0 v1) _ (fun p q => v0 (ix2 p q)) (fun p c => v1 (ix2 p c))
    (fun p q r => pay3_apply v0 v1 p q r) (scanned_96 v4 v0 v1) p q c).trans ?_
  rw [e2]
  rfl

end Cert.KernelIdeal.Block

end
-- ==== Proof.KernelArray.lean ====
/-
  From blocks to the array.  The grid has 8 × 4 points; point (bi, ti) reads the embedding block of rows 8·bi…8·bi+7 and
  targets 128·ti…128·ti+127, the target times of the same rows and targets, the context times and the mask of the same
  rows, and writes the block of the same rows and targets of the output, all 512 context positions.  A row of attention
  depends only on its own (row, target) and on its row's context times and mask, so what a point writes is its block
  of the attention array of the whole arrays; the 32 blocks tile the array.
-/
import proofs.«417531_j38345468019460_2_alg».proof.Proof.Gen.KernelIdeal.Value
import proofs.«417531_j38345468019460_2_alg».proof.Proof.Spec
import proofs.«417531_j38345468019460_2_alg».proof.Proof.Block
import Idealize.ShloMosaic.Lib.Pipeline.Value
import Idealize.ShloMosaic.Lib.ValueIdx

noncomputable section

namespace Cert.KernelIdeal.Whole

open Cert.KernelIdeal Cert.KernelIdeal.Gen Cert.KernelIdeal.Block Cert.TimeWindow
open Idealize.ShloMosaic Idealize.ShloMosaic.TcCoe Idealize.ShloMosaic.ValueIdx Idealize.SL.Sem
open Idealize.ShloMosaic.Pipeline (Dat)

/-! ## One block, over variables -/

/-- If the four loaded blocks are the blocks (bi, ti) of whole arrays, the stored block is the block (bi, ti) of the
    attention array of those arrays. -/
theorem stored_eq_attn (x0 : Vec Ideal S8x128x101 .f32) (x1 : Vec Ideal S8x128 .i32) (x2 x3 : Vec Ideal S8x512 .i32)
    (emb : (⟨3, ![64, 512, 101]⟩ : Shape).Idx → EReal) (tt ct mk : (⟨2, ![64, 512]⟩ : Shape).Idx → BitVec 32)
    (p : Fin 8) (q : Fin 128) (r : Fin 512) (b : Fin 64) (t : Fin 512)
    (h0 : ∀ w : Fin 101, x0 (ix3 p q w) = emb (ix3 b t w))
    (h1 : x1 (ix2 p q) = tt (ix2 b t))
    (h2 : ∀ c : Fin 512, x2 (ix2 p c) = ct (ix2 b c))
    (h3 : ∀ c : Fin 512, x3 (ix2 p c) = mk (ix2 b c)) :
    stored x0 x1 x2 x3 (ix3 p q r) = attn emb tt ct mk (ix3 b t r) := by
  rw [stored_apply, attn_apply, h1]
  simp only [h0, h2, h3]

/-! ## The blocks of the arrays the region finds -/

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The attention array of the arrays as the region finds them: the gathered embedding rows (a host result), the
    target times, the context times and the mask (arguments). -/
def result (c : Dev nD) : S64x512x512.Idx → Elt Ideal .f32 :=
  attn (V m c main_v6) (V m c main_arg1) (V m c main_arg2) (V m c main_arg3)

/-- The index maps over the 32 grid points: every input window's block index follows the output's (row block, target
    block), with the context and column axes whole. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = win0_4.index t (0 : Fin 3) ∧ win0_1.index t (1 : Fin 2) = win0_4.index t (1 : Fin 3)
    ∧ win0_2.index t (0 : Fin 2) = win0_4.index t (0 : Fin 3) ∧ win0_2.index t (1 : Fin 2) = 0
    ∧ win0_3.index t (0 : Fin 2) = win0_4.index t (0 : Fin 3) ∧ win0_3.index t (1 : Fin 2) = 0
    ∧ win0_4.index t (2 : Fin 3) = 0 ∧ win0_4.index t (0 : Fin 3) ≤ 7 ∧ win0_4.index t (1 : Fin 3) ≤ 3 :=
  (by decide +kernel : ∀ t : Fin grid0.N, _)

/-- What point `t` writes back is block `t` of the attention array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros3]
  simp only [View.ld_unit_zero (S := S8x128x101) zeros3, View.ld_unit_zero (S := S8x128) zeros2, View.ld_unit_zero (S := S8x512) zeros2]
  funext j
  show stored (iblk m c 0 t) (iblk m c 1 t) (iblk m c 2 t) (iblk m c 3 t) j = result m c (((cfg0.win 4).blk t).view.emb j)
  obtain ⟨e00, e01, e02, e10, e11, e20, e21, e30, e31, e42, b0, b1⟩ := index_facts t
  obtain ⟨p, q, r, rfl⟩ : ∃ (p : Fin 8) (q : Fin 128) (r : Fin 512), j = ix3 p q r := ⟨j 0, j 1, j 2, eq_ix3 j⟩
  have hp : p.val < 8 := p.isLt
  have hq : q.val < 128 := q.isLt
  have hr : r.val < 512 := r.isLt
  have hb : 8 * win0_4.index t (0 : Fin 3) + p.val < 64 := by omega
  have ht : 128 * win0_4.index t (1 : Fin 3) + q.val < 512 := by omega
  refine (stored_eq_attn (iblk m c 0 t) (iblk m c 1 t) (iblk m c 2 t) (iblk m c 3 t)
    (V m c main_v6) (V m c main_arg1) (V m c main_arg2) (V m c main_arg3) p q r ⟨_, hb⟩ ⟨_, ht⟩ ?_ ?_ ?_ ?_).trans ?_
  · intro w
    have hw : w.val < 101 := w.isLt
    show V m c main_v6 (((cfg0.win 0).blk t).view.emb (ix3 p q w)) = V m c main_v6 _
    refine congrArg _ (funext fun a => Fin.ext ?_)
    match a with
    | ⟨0, _⟩ => show win0_0.index t (0 : Fin 3) * 8 + 1 * p.val = 8 * win0_4.index t (0 : Fin 3) + p.val; omega
    | ⟨1, _⟩ => show win0_0.index t (1 : Fin 3) * 128 + 1 * q.val = 128 * win0_4.index t (1 : Fin 3) + q.val; omega
    | ⟨2, _⟩ => show win0_0.index t (2 : Fin 3) * 101 + 1 * w.val = w.val; omega
  · show V m c main_arg1 (((cfg0.win 1).blk t).view.emb (ix2 p q)) = V m c main_arg1 _
    refine congrArg _ (funext fun a => Fin.ext ?_)
    match a with
    | ⟨0, _⟩ => show win0_1.index t (0 : Fin 2) * 8 + 1 * p.val = 8 * win0_4.index t (0 : Fin 3) + p.val; omega
    | ⟨1, _⟩ => show win0_1.index t (1 : Fin 2) * 128 + 1 * q.val = 128 * win0_4.index t (1 : Fin 3) + q.val; omega
  · intro k
    have hk : k.val < 512 := k.isLt
    show V m c main_arg2 (((cfg0.win 2).blk t).view.emb (ix2 p k)) = V m c main_arg2 _
    refine congrArg _ (funext fun a => Fin.ext ?_)
    match a with
    | ⟨0, _⟩ => show win0_2.index t (0 : Fin 2) * 8 + 1 * p.val = 8 * win0_4.index t (0 : Fin 3) + p.val; omega
    | ⟨1, _⟩ => show win0_2.index t (1 : Fin 2) * 512 + 1 * k.val = k.val; omega
  · intro k
    have hk : k.val < 512 := k.isLt
    show V m c main_arg3 (((cfg0.win 3).blk t).view.emb (ix2 p k)) = V m c main_arg3 _
    refine congrArg _ (funext fun a => Fin.ext ?_)
    match a with
    | ⟨0, _⟩ => show win0_3.index t (0 : Fin 2) * 8 + 1 * p.val = 8 * win0_4.index t (0 : Fin 3) + p.val; omega
    | ⟨1, _⟩ => show win0_3.index t (1 : Fin 2) * 512 + 1 * k.val = k.val; omega
  · unfold result
    refine congrArg _ (funext fun a => Fin.ext ?_)
    match a with
    | ⟨0, _⟩ => show 8 * win0_4.index t (0 : Fin 3) + p.val = win0_4.index t (0 : Fin 3) * 8 + 1 * p.val; omega
    | ⟨1, _⟩ => show 128 * win0_4.index t (1 : Fin 3) + q.val = win0_4.index t (1 : Fin 3) * 128 + 1 * q.val; omega
    | ⟨2, _⟩ => show r.val = win0_4.index t (2 : Fin 3) * 512 + 1 * r.val; omega

/-! ## The blocks tile the array -/

/-- An index of the output array is in point `t`'s block iff each coordinate is in the block's range on its axis. -/
theorem mem_block (t : Fin cfg0.N) (i : S64x512x512.Idx) :
    i ∈ ((cfg0.win 4).blk t).view.set ↔ ∀ a : Fin 3, win0_4.index t a * S8x128x512.size a ≤ (i a).val
      ∧ (i a).val < win0_4.index t a * S8x128x512.size a + S8x128x512.size a := by
  show i ∈ ((View.whole main_v7).slice (win0_4.rect t)).set ↔ _
  rw [View.set_slice_whole, Rect.mem_set_unit]
  exact Iff.rfl

/-- Every (row block, target block) is some point's. -/
theorem index_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- Every index of the output array lies in the block of the point of its row block and target block. -/
theorem covered (i : S64x512x512.Idx) :
    ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 512 := (i 2).isLt
  obtain ⟨t, ht⟩ := index_onto ⟨(i 0).val / 8, by omega⟩ ⟨(i 1).val / 128, by omega⟩
  have q0 : win0_4.index t (0 : Fin 3) = (i 0).val / 8 := congrFun ht 0
  have q1 : win0_4.index t (1 : Fin 3) = (i 1).val / 128 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 512 ≤ (i 2).val ∧ (i 2).val < win0_4.index t (2 : Fin 3) * 512 + 512; omega

/-- The output array after the run is the attention array. -/
theorem final (c : Dev nD) : (dats m 0 c).arrAt 4 cfg0.N = result m c :=
  (dats m 0 c).arrAt_eq_of_cover 4 (result m c) (fun t _ => flushed_eq m c t) covered

/-! ## The run, read -/

/-- Every weakly fair execution of the idealized kernel's program ends with the output array at the attention array of
    the arrays the region finds, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefRun.lean ====
/-
  The reference's run, stage by stage.  @main of the reference is a straight line of 68 host operations (the two
  functions it calls, the clip and the gather along the window axis, stand inline at their calls).  The line is cut
  into six stretches; after each stretch the buffers the later stretches read hold the stages of Proof/RefStages.lean
  as functions of the argument arrays: the gathered embedding rows; the window positions; the embedding entries at the
  positions; the logits; the exponentials of the logits minus the row maxima; the quotients by the row sums.
-/
import proofs.«417531_j38345468019460_2_alg».proof.Proof.Gen.ReferenceIdeal
import proofs.«417531_j38345468019460_2_alg».proof.Proof.RefStages
import Idealize.ShloMosaic.Lib.StableHlo.Run

noncomputable section

namespace Cert.ReferenceIdeal.StageRun

open Cert.ReferenceIdeal Cert.ReferenceIdeal.Gen Cert.ReferenceIdeal.Stage
open Idealize.ShloMosaic Idealize.ShloMosaic.TcCoe Idealize.SL.Sem Idealize.ShloMosaic.StableHlo

variable {F : FTy → Type} [FloatOps F]

/-! ## The six stretches -/

/-- The embedding gather: the concepts with negative ones shifted by the table's height, then the rows of the table. -/
abbrev opsA : List (HloOp τ sig (Elt F)) :=
  [ nullary main_c (constantI S_ 32 0#32),
    unary main_c main_v0 (broadcastInDim S64x512 ![] bcast_S_S64x512 : (⟨S_, .i32⟩ : BufTy).Contents (Elt F) → (⟨S64x512, .i32⟩ : BufTy).Contents (Elt F)),
    binary main_arg0 main_v0 main_v1 (cmpi .slt : (⟨S64x512, .i32⟩ : BufTy).Contents (Elt F) → (⟨S64x512, .i32⟩ : BufTy).Contents (Elt F) → (⟨S64x512, .i1⟩ : BufTy).Contents (Elt F)),
    nullary main_c_0 (constantI S_ 32 50000#32),
    unary main_c_0 main_v2 (broadcastInDim S64x512 ![] bcast_S_S64x512 : (⟨S_, .i32⟩ : BufTy).Contents (Elt F) → (⟨S64x512, .i32⟩ : BufTy).Contents (Elt F)),
    binary main_arg0 main_v2 main_v3 (addi : (⟨S64x512, .i32⟩ : BufTy).Contents (Elt F) → (⟨S64x512, .i32⟩ : BufTy).Contents (Elt F) → (⟨S64x512, .i32⟩ : BufTy).Contents (Elt F)),
    ternary main_v1 main_v3 main_arg0 main_v4 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    unary main_v4 main_v5 (broadcastInDim S64x512x1 ![0, 1] bcast_S64x512_S64x512x1_0_1 : (⟨S64x512, .i32⟩ : BufTy).Contents (Elt F) → (⟨S64x512x1, .i32⟩ : BufTy).Contents (Elt F)),
    binary main_arg4 main_v5 main_v6 ((fun x i => Host.gather gather_S50000x101_S64x512x1_S64x512x101_2_0_n_n_0_2_1101 x i) : (⟨S50000x101, .f32⟩ : BufTy).Contents (Elt F) → (⟨S64x512x1, .i32⟩ : BufTy).Contents (Elt F) → (⟨S64x512x101, .f32⟩ : BufTy).Contents (Elt F)) ]

/-- The window positions: context time minus target time, clamped, plus 50. -/
abbrev opsB : List (HloOp τ sig (Elt F)) :=
  [ unary main_arg2 main_v7 (broadcastInDim S64x1x512 ![0, 2] bcast_S64x512_S64x1x512_0_2 : (⟨S64x512, .i32⟩ : BufTy).Contents (Elt F) → (⟨S64x1x512, .i32⟩ : BufTy).Contents (Elt F)),
    unary main_arg1 main_v8 (broadcastInDim S64x512x1 ![0, 1] bcast_S64x512_S64x512x1_0_1 : (⟨S64x512, .i32⟩ : BufTy).Contents (Elt F) → (⟨S64x512x1, .i32⟩ : BufTy).Contents (Elt F)),
    unary main_v7 main_v9 (broadcastInDim S64x512x512 ![0, 1, 2] bcast_S64x1x512_S64x512x512_0_1_2 : (⟨S64x1x512, .i32⟩ : BufTy).Contents (Elt F) → (⟨S64x512x512, .i32⟩ : BufTy).Contents (Elt F)),
    unary main_v8 main_v10 (broadcastInDim S64x512x512 ![0, 1, 2] bcast_S64x512x1_S64x512x512_0_1_2 : (⟨S64x512x1, .i32⟩ : BufTy).Contents (Elt F) → (⟨S64x512x512, .i32⟩ : BufTy).Contents (Elt F)),
    binary main_v9 main_v10 main_v11 (subi : (⟨S64x512x512, .i32⟩ : BufTy).Contents (Elt F) → (⟨S64x512x512, .i32⟩ : BufTy).Contents (Elt F) → (⟨S64x512x512, .i32⟩ : BufTy).Contents (Elt F)),
    nullary main_c_1 (constantI S_ 32 4294967246#32),
    nullary main_c_2 (constantI S_ 32 50#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S64x512x512, .i32⟩) main_call0_v1) (broadcastInDim S64x512x512 ![] bcast_S_S64x512x512),
    TRef.binary (TRef.of (T := ⟨S64x512x512, .i32⟩) main_call0_v1) (TRef.of (T := ⟨S64x512x512, .i32⟩) main_v11) (TRef.of (T := ⟨S64x512x512, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S64x512x512, .i32⟩) main_call0_v4) (broadcastInDim S64x512x512 ![] bcast_S_S64x512x512),
    TRef.binary (TRef.of (T := ⟨S64x512x512, .i32⟩) main_call0_v4) (TRef.of (T := ⟨S64x512x512, .i32⟩) main_call0_v2) (TRef.of (T := ⟨S64x512x512, .i32⟩) main_v12) minsi,
    nullary main_c_3 (constantI S_ 32 50#32),
    unary main_c_3 main_v13 (broadcastInDim S64x512x512 ![] bcast_S_S64x512x512 : (⟨S_, .i32⟩ : BufTy).Contents (Elt F) → (⟨S64x512x512, .i32⟩ : BufTy).Contents (Elt F)),
    binary main_v12 main_v13 main_v14 (addi : (⟨S64x512x512, .i32⟩ : BufTy).Contents (Elt F) → (⟨S64x512x512, .i32⟩ : BufTy).Contents (Elt F) → (⟨S64x512x512, .i32⟩ : BufTy).Contents (Elt F)) ]

/-- The gather along the window axis, in its fill form: the index normalised, tested in range, gathered, selected
    against the fill value. -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S64x512x512, .i32⟩) main_call1_v0) (broadcastInDim S64x512x512 ![] bcast_S_S64x512x512),
    TRef.binary (TRef.of (T := ⟨S64x512x512, .i32⟩) main_v14) (TRef.of (T := ⟨S64x512x512, .i32⟩) main_call1_v0) (TRef.of (T := ⟨S64x512x512, .i1⟩) main_call1_v1) (cmpi .slt),
    TRef.nullary (TRef.of (T := ⟨S_, .i32⟩) main_call1_c_0) (constantI S_ 32 101#32),
    TRef.unary (TRef.of (T := ⟨S_, .i32⟩) main_call1_c_0) (TRef.of (T := ⟨S64x512x512, .i32⟩) main_call1_v2) (broadcastInDim S64x512x512 ![] bcast_S_S64x512x512),
    TRef.binary (TRef.of (T := ⟨S64x512x512, .i32⟩) main_v14) (TRef.of (T := ⟨S64x512x512, .i32⟩) main_call1_v2) (TRef.of (T := ⟨S64x512x512, .i32⟩) main_call1_v3) addi,
    TRef.ternary (TRef.of (T := ⟨S64x512x512, .i1⟩) main_call1_v1) (TRef.of (T := ⟨S64x512x512, .i32⟩) main_call1_v3) (TRef.of (T := ⟨S64x512x512, .i32⟩) main_v14) (TRef.of (T := ⟨S64x512x512, .i32⟩) main_call1_v4) select,
    TRef.reshape (TRef.of (T := ⟨S64x512x512, .i32⟩) main_call1_v4) (TRef.of (T := ⟨S64x512x512x1, .i32⟩) main_call1_v5) rfl shapeCasts_S64x512x512_S64x512x512x1,
    TRef.nullary (TRef.of (T := ⟨S1, .i32⟩) main_call1_c_1) (constantI S1 32 100#32),
    TRef.nullary (TRef.of (T := ⟨S_, .i32⟩) main_call1_c_2) (constantI S_ 32 0#32),
    TRef.unary (TRef.of (T := ⟨S_, .i32⟩) main_call1_c_2) (TRef.of (T := ⟨S64x512x512x1, .i32⟩) main_call1_v6) (broadcastInDim S64x512x512x1 ![] bcast_S_S64x512x512x1),
    TRef.binary (TRef.of (T := ⟨S64x512x512x1, .i32⟩) main_call1_v5) (TRef.of (T := ⟨S64x512x512x1, .i32⟩) main_call1_v6) (TRef.of (T := ⟨S64x512x512x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S64x512x512x1, .i32⟩) main_call1_v9) (broadcastInDim S64x512x512x1 ![0, 1, 2, 3] bcast_S1x1x1x1_S64x512x512x1_0_1_2_3),
    TRef.binary (TRef.of (T := ⟨S64x512x512x1, .i32⟩) main_call1_v5) (TRef.of (T := ⟨S64x512x512x1, .i32⟩) main_call1_v9) (TRef.of (T := ⟨S64x512x512x1, .i1⟩) main_call1_v10) (cmpi .sle),
    TRef.binary (TRef.of (T := ⟨S64x512x512x1, .i1⟩) main_call1_v7) (TRef.of (T := ⟨S64x512x512x1, .i1⟩) main_call1_v10) (TRef.of (T := ⟨S64x512x512x1, .i1⟩) main_call1_v11) andi,
    TRef.nullary (TRef.of (T := ⟨S_, .i1⟩) main_call1_c_3) (constantI S_ 1 1#1),
    TRef.binary (TRef.of (T := ⟨S64x512x512x1, .i1⟩) main_call1_v11) (TRef.of (T := ⟨S_, .i1⟩) main_call1_c_3) (TRef.of (T := ⟨S64x512x512, .i1⟩) main_call1_v12) (fun x v => Host.reduce IntOp.andi x v reducesTo_S64x512x512x1_S64x512x512_d3 h_S_),
    TRef.binary (TRef.of (T := ⟨S64x512x101, .f32⟩) main_v6) (TRef.of (T := ⟨S64x512x512x1, .i32⟩) main_call1_v5) (TRef.of (T := ⟨S64x512x512, .f32⟩) main_call1_v13) (fun x i => Host.gather gather_S64x512x101_S64x512x512x1_S64x512x512_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S64x512x512, .f32⟩) main_call1_v14) (broadcastInDim S64x512x512 ![] bcast_S_S64x512x512),
    TRef.ternary (TRef.of (T := ⟨S64x512x512, .i1⟩) main_call1_v12) (TRef.of (T := ⟨S64x512x512, .f32⟩) main_call1_v13) (TRef.of (T := ⟨S64x512x512, .f32⟩) main_call1_v14) (TRef.of (T := ⟨S64x512x512, .f32⟩) main_v15) select ]

/-- The logits: plus the mask as a float times -1e9. -/
abbrev opsD : List (HloOp τ sig (Elt F)) :=
  [ unary main_arg3 main_v16 (broadcastInDim S64x1x512 ![0, 2] bcast_S64x512_S64x1x512_0_2 : (⟨S64x512, .i32⟩ : BufTy).Contents (Elt F) → (⟨S64x1x512, .i32⟩ : BufTy).Contents (Elt F)),
    unary main_v16 main_v17 (sitofp .f32 : (⟨S64x1x512, .i32⟩ : BufTy).Contents (Elt F) → (⟨S64x1x512, .f32⟩ : BufTy).Contents (Elt F)),
    nullary main_cst (constant S_ .f32 0xCE6E6B28#32),
    unary main_cst main_v18 (broadcastInDim S64x1x512 ![] bcast_S_S64x1x512 : (⟨S_, .f32⟩ : BufTy).Contents (Elt F) → (⟨S64x1x512, .f32⟩ : BufTy).Contents (Elt F)),
    binary main_v17 main_v18 main_v19 (mulf : (⟨S64x1x512, .f32⟩ : BufTy).Contents (Elt F) → (⟨S64x1x512, .f32⟩ : BufTy).Contents (Elt F) → (⟨S64x1x512, .f32⟩ : BufTy).Contents (Elt F)),
    unary main_v19 main_v20 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v15 main_v20 main_v21 (addf : (⟨S64x512x512, .f32⟩ : BufTy).Contents (Elt F) → (⟨S64x512x512, .f32⟩ : BufTy).Contents (Elt F) → (⟨S64x512x512, .f32⟩ : BufTy).Contents (Elt F)) ]

/-- The exponentials of the logits minus the row maxima. -/
abbrev opsE : List (HloOp τ sig (Elt F)) :=
  [ nullary main_cst_4 (constant S_ .f32 0xFF800000#32),
    binary main_v21 main_cst_4 main_v22 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    nullary main_cst_5 (constant S_ .f32 0xFF800000#32),
    unary main_cst_5 main_v23 (broadcastInDim S64x512 ![] bcast_S_S64x512 : (⟨S_, .f32⟩ : BufTy).Contents (Elt F) → (⟨S64x512, .f32⟩ : BufTy).Contents (Elt F)),
    binary main_v23 main_v22 main_v24 (maximumf : (⟨S64x512, .f32⟩ : BufTy).Contents (Elt F) → (⟨S64x512, .f32⟩ : BufTy).Contents (Elt F) → (⟨S64x512, .f32⟩ : BufTy).Contents (Elt F)),
    unary main_v24 main_v25 (broadcastInDim S64x512x1 ![0, 1] bcast_S64x512_S64x512x1_0_1 : (⟨S64x512, .f32⟩ : BufTy).Contents (Elt F) → (⟨S64x512x1, .f32⟩ : BufTy).Contents (Elt F)),
    unary main_v25 main_v26 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v21 main_v26 main_v27 (subf : (⟨S64x512x512, .f32⟩ : BufTy).Contents (Elt F) → (⟨S64x512x512, .f32⟩ : BufTy).Contents (Elt F) → (⟨S64x512x512, .f32⟩ : BufTy).Contents (Elt F)),
    unary main_v27 main_v28 (Host.exp : (⟨S64x512x512, .f32⟩ : BufTy).Contents (Elt F) → (⟨S64x512x512, .f32⟩ : BufTy).Contents (Elt F)) ]

/-- The quotients by the row sums. -/
abbrev opsF : List (HloOp τ sig (Elt F)) :=
  [ nullary main_cst_6 (constant S_ .f32 0x00000000#32),
    binary main_v28 main_cst_6 main_v29 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v29 main_v30 (broadcastInDim S64x512x1 ![0, 1] bcast_S64x512_S64x512x1_0_1 : (⟨S64x512, .f32⟩ : BufTy).Contents (Elt F) → (⟨S64x512x1, .f32⟩ : BufTy).Contents (Elt F)),
    unary main_v30 main_v31 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v28 main_v31 main_v32 (Host.divf : (⟨S64x512x512, .f32⟩ : BufTy).Contents (Elt F) → (⟨S64x512x512, .f32⟩ : BufTy).Contents (Elt F) → (⟨S64x512x512, .f32⟩ : BufTy).Contents (Elt F)) ]

/-- @main's 68 operations, in order. -/
abbrev ops : List (HloOp τ sig (Elt F)) := opsA ++ (opsB ++ (opsC ++ (opsD ++ (opsE ++ opsF))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem opsB_sub : (opsB : List (HloOp τ sig (Elt F))).Forall fun op => op.bufs ⊆ tcRefs τ sig :=
  ⟨unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsD_sub : (opsD : List (HloOp τ sig (Elt F))).Forall fun op => op.bufs ⊆ tcRefs τ sig :=
  ⟨unary_bufs_sub .., unary_bufs_sub .., nullary_bufs_sub .., unary_bufs_sub .., binary_bufs_sub .., unary_bufs_sub .., binary_bufs_sub ..⟩
theorem opsE_sub : (opsE : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
theorem opsF_sub : (opsF : List (HloOp τ sig (Elt F))).Forall fun op => op.bufs ⊆ tcRefs τ sig :=
  ⟨nullary_bufs_sub .., binary_bufs_sub .., unary_bufs_sub .., unary_bufs_sub .., binary_bufs_sub ..⟩

theorem forall_append {α : Type} {p : α → Prop} : ∀ {l₁ l₂ : List α}, l₁.Forall p → l₂.Forall p → (l₁ ++ l₂).Forall p := by
  intro l₁ l₂ h₁ h₂
  rw [List.forall_iff_forall_mem] at *
  intro x hx
  rcases List.mem_append.mp hx with h | h
  · exact h₁ x h
  · exact h₂ x h

theorem ops_sub : (ops : List (HloOp τ sig (Elt F))).Forall fun op => op.bufs ⊆ tcRefs τ sig :=
  forall_append opsA_sub (forall_append opsB_sub (forall_append opsC_sub (forall_append opsD_sub (forall_append opsE_sub opsF_sub))))

/-- The fold over a line cut in two is the fold over the second part of the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## Each stretch, from any valuation -/

attribute [local irreducible] Host.reduce Host.reduceAdd Host.gather

theorem stretchA (W : Valuation τ sig (Elt F)) :
    (after opsA W (Proc.devRef .tc main_v6) : (⟨S64x512x101, .f32⟩ : BufTy).Contents (Elt F))
      = val_main_v6 (F := F) (W (Proc.devRef .tc main_arg0)) (W (Proc.devRef .tc main_arg4)) := by
  after_results_simp <;> rfl

/-- A typed reference's two transports cancel: reading back at the value's type what was put in at the buffer's. -/
theorem ofBuf_toBuf {T : BufTy} (x : TRef sig T) (v : T.Contents (Elt F)) : x.ofBuf (x.toBuf v) = v := by
  obtain ⟨r, h, h1, h2⟩ := x
  subst h
  rfl

theorem stretchB (W : Valuation τ sig (Elt F)) (x1 x2 : (⟨S64x512, .i32⟩ : BufTy).Contents (Elt F))
    (h1 : (W (Proc.devRef .tc main_arg1) : (⟨S64x512, .i32⟩ : BufTy).Contents (Elt F)) = x1) (h2 : (W (Proc.devRef .tc main_arg2) : (⟨S64x512, .i32⟩ : BufTy).Contents (Elt F)) = x2) :
    (after opsB W (Proc.devRef .tc main_v14) : (⟨S64x512x512, .i32⟩ : BufTy).Contents (Elt F)) = val_main_v14 (F := F) x1 x2 := by
  subst h1 h2
  after_results_simp <;> (try simp only [TRef.ofBuf, TRef.toBuf, cast_eq]) <;> rfl

theorem stretchC (W : Valuation τ sig (Elt F)) (x0 x1 x2 : (⟨S64x512, .i32⟩ : BufTy).Contents (Elt F)) (x4 : (⟨S50000x101, .f32⟩ : BufTy).Contents (Elt F))
    (h6 : (W (Proc.devRef .tc main_v6) : (⟨S64x512x101, .f32⟩ : BufTy).Contents (Elt F)) = val_main_v6 (F := F) x0 x4)
    (h14 : (W (Proc.devRef .tc main_v14) : (⟨S64x512x512, .i32⟩ : BufTy).Contents (Elt F)) = val_main_v14 (F := F) x1 x2) :
    (after opsC W (Proc.devRef .tc main_v15) : (⟨S64x512x512, .f32⟩ : BufTy).Contents (Elt F)) = val_main_v15 (F := F) x0 x1 x2 x4 := by
  after_results_simp
  simp only [ofBuf_toBuf]
  simp only [val_main_v15, val_main_call1_v14, val_main_call1_cst, val_main_call1_v13, val_main_call1_v12, val_main_call1_c_3, val_main_call1_v11, val_main_call1_v10, val_main_call1_v9, val_main_call1_v8, val_main_call1_c_1, val_main_call1_v7, val_main_call1_v6, val_main_call1_c_2, val_main_call1_v5, val_main_call1_v4, val_main_call1_v3, val_main_call1_v2, val_main_call1_c_0, val_main_call1_v1, val_main_call1_v0, val_main_call1_c]
  rw [← h6, ← h14]
  try rfl

theorem stretchD (W : Valuation τ sig (Elt F)) (x0 x1 x2 x3 : (⟨S64x512, .i32⟩ : BufTy).Contents (Elt F)) (x4 : (⟨S50000x101, .f32⟩ : BufTy).Contents (Elt F))
    (h15 : (W (Proc.devRef .tc main_v15) : (⟨S64x512x512, .f32⟩ : BufTy).Contents (Elt F)) = val_main_v15 (F := F) x0 x1 x2 x4)
    (h3 : (W (Proc.devRef .tc main_arg3) : (⟨S64x512, .i32⟩ : BufTy).Contents (Elt F)) = x3) :
    (after opsD W (Proc.devRef .tc main_v21) : (⟨S64x512x512, .f32⟩ : BufTy).Contents (Elt F)) = val_main_v21 (F := F) x0 x1 x2 x3 x4 := by
  subst h3
  after_results_simp
  simp only [val_main_v21, val_main_v20, val_main_v19, val_main_v18, val_main_cst, val_main_v17, val_main_v16]
  rw [← h15]

theorem stretchE (W : Valuation τ sig (Elt F)) (x0 x1 x2 x3 : (⟨S64x512, .i32⟩ : BufTy).Contents (Elt F)) (x4 : (⟨S50000x101, .f32⟩ : BufTy).Contents (Elt F))
    (h21 : (W (Proc.devRef .tc main_v21) : (⟨S64x512x512, .f32⟩ : BufTy).Contents (Elt F)) = val_main_v21 (F := F) x0 x1 x2 x3 x4) :
    (after opsE W (Proc.devRef .tc main_v28) : (⟨S64x512x512, .f32⟩ : BufTy).Contents (Elt F)) = val_main_v28 (F := F) x0 x1 x2 x3 x4 := by
  after_results_simp
  simp only [val_main_v28, val_main_v27, val_main_v26, val_main_v25, val_main_v24, val_main_v23, val_main_cst_5, val_main_v22, val_main_cst_4]
  rw [← h21]

theorem stretchF (W : Valuation τ sig (Elt F)) (x0 x1 x2 x3 : (⟨S64x512, .i32⟩ : BufTy).Contents (Elt F)) (x4 : (⟨S50000x101, .f32⟩ : BufTy).Contents (Elt F))
    (h28 : (W (Proc.devRef .tc main_v28) : (⟨S64x512x512, .f32⟩ : BufTy).Contents (Elt F)) = val_main_v28 (F := F) x0 x1 x2 x3 x4) :
    (after opsF W (Proc.devRef .tc main_v32) : (⟨S64x512x512, .f32⟩ : BufTy).Contents (Elt F)) = val_main_v32 (F := F) x0 x1 x2 x3 x4 := by
  after_results_simp
  simp only [val_main_v32, val_main_v31, val_main_v30, val_main_v29, val_main_cst_6]
  rw [← h28]

/-! ## What each stretch leaves alone -/

theorem keptA (W : Valuation τ sig (Elt F)) :
    after opsA W (Proc.devRef .tc main_arg0) = W (Proc.devRef .tc main_arg0) ∧ after opsA W (Proc.devRef .tc main_arg1) = W (Proc.devRef .tc main_arg1)
    ∧ after opsA W (Proc.devRef .tc main_arg2) = W (Proc.devRef .tc main_arg2) ∧ after opsA W (Proc.devRef .tc main_arg3) = W (Proc.devRef .tc main_arg3)
    ∧ after opsA W (Proc.devRef .tc main_arg4) = W (Proc.devRef .tc main_arg4) :=
  ⟨by after_results_simp, by after_results_simp, by after_results_simp, by after_results_simp, by after_results_simp⟩
theorem freshA : ∀ op ∈ (opsA : List (HloOp τ sig (Elt F))), op.fresh = ∅ := by
  intro _ h; (repeat (cases h with | head => rfl | tail _ h => ?_)); exact nomatch h
theorem keptB (W : Valuation τ sig (Elt F)) :
    after opsB W (Proc.devRef .tc main_arg0) = W (Proc.devRef .tc main_arg0) ∧ after opsB W (Proc.devRef .tc main_arg1) = W (Proc.devRef .tc main_arg1)
    ∧ after opsB W (Proc.devRef .tc main_arg2) = W (Proc.devRef .tc main_arg2) ∧ after opsB W (Proc.devRef .tc main_arg3) = W (Proc.devRef .tc main_arg3)
    ∧ after opsB W (Proc.devRef .tc main_arg4) = W (Proc.devRef .tc main_arg4) :=
  ⟨by after_results_simp, by after_results_simp, by after_results_simp, by after_results_simp, by after_results_simp⟩
theorem freshB : ∀ op ∈ (opsB : List (HloOp τ sig (Elt F))), op.fresh = ∅ := by
  intro _ h; (repeat (cases h with | head => rfl | tail _ h => ?_)); exact nomatch h
theorem keptC (W : Valuation τ sig (Elt F)) :
    after opsC W (Proc.devRef .tc main_arg0) = W (Proc.devRef .tc main_arg0) ∧ after opsC W (Proc.devRef .tc main_arg1) = W (Proc.devRef .tc main_arg1)
    ∧ after opsC W (Proc.devRef .tc main_arg2) = W (Proc.devRef .tc main_arg2) ∧ after opsC W (Proc.devRef .tc main_arg3) = W (Proc.devRef .tc main_arg3)
    ∧ after opsC W (Proc.devRef .tc main_arg4) = W (Proc.devRef .tc main_arg4) :=
  ⟨by after_results_simp, by after_results_simp, by after_results_simp, by after_results_simp, by after_results_simp⟩
theorem freshC : ∀ op ∈ (opsC : List (HloOp τ sig (Elt F))), op.fresh = ∅ := by
  intro _ h; (repeat (cases h with | head => rfl | tail _ h => ?_)); exact nomatch h
theorem keptD (W : Valuation τ sig (Elt F)) :
    after opsD W (Proc.devRef .tc main_arg0) = W (Proc.devRef .tc main_arg0) ∧ after opsD W (Proc.devRef .tc main_arg1) = W (Proc.devRef .tc main_arg1)
    ∧ after opsD W (Proc.devRef .tc main_arg2) = W (Proc.devRef .tc main_arg2) ∧ after opsD W (Proc.devRef .tc main_arg3) = W (Proc.devRef .tc main_arg3)
    ∧ after opsD W (Proc.devRef .tc main_arg4) = W (Proc.devRef .tc main_arg4) :=
  ⟨by after_results_simp, by after_results_simp, by after_results_simp, by after_results_simp, by after_results_simp⟩
theorem freshD : ∀ op ∈ (opsD : List (HloOp τ sig (Elt F))), op.fresh = ∅ := by
  intro _ h; (repeat (cases h with | head => rfl | tail _ h => ?_)); exact nomatch h
theorem keptE (W : Valuation τ sig (Elt F)) :
    after opsE W (Proc.devRef .tc main_arg0) = W (Proc.devRef .tc main_arg0) ∧ after opsE W (Proc.devRef .tc main_arg1) = W (Proc.devRef .tc main_arg1)
    ∧ after opsE W (Proc.devRef .tc main_arg2) = W (Proc.devRef .tc main_arg2) ∧ after opsE W (Proc.devRef .tc main_arg3) = W (Proc.devRef .tc main_arg3)
    ∧ after opsE W (Proc.devRef .tc main_arg4) = W (Proc.devRef .tc main_arg4) :=
  ⟨by after_results_simp, by after_results_simp, by after_results_simp, by after_results_simp, by after_results_simp⟩
theorem freshE : ∀ op ∈ (opsE : List (HloOp τ sig (Elt F))), op.fresh = ∅ := by
  intro _ h; (repeat (cases h with | head => rfl | tail _ h => ?_)); exact nomatch h
theorem keptF (W : Valuation τ sig (Elt F)) :
    after opsF W (Proc.devRef .tc main_arg0) = W (Proc.devRef .tc main_arg0) ∧ after opsF W (Proc.devRef .tc main_arg1) = W (Proc.devRef .tc main_arg1)
    ∧ after opsF W (Proc.devRef .tc main_arg2) = W (Proc.devRef .tc main_arg2) ∧ after opsF W (Proc.devRef .tc main_arg3) = W (Proc.devRef .tc main_arg3)
    ∧ after opsF W (Proc.devRef .tc main_arg4) = W (Proc.devRef .tc main_arg4) :=
  ⟨by after_results_simp, by after_results_simp, by after_results_simp, by after_results_simp, by after_results_simp⟩
theorem freshF : ∀ op ∈ (opsF : List (HloOp τ sig (Elt F))), op.fresh = ∅ := by
  intro _ h; (repeat (cases h with | head => rfl | tail _ h => ?_)); exact nomatch h

theorem keptB_v6 (W : Valuation τ sig (Elt F)) : after opsB W (Proc.devRef .tc main_v6) = W (Proc.devRef .tc main_v6) := by after_results_simp

theorem ops_fresh : ∀ op ∈ (ops : List (HloOp τ sig (Elt F))), op.fresh = ∅ := by
  intro op h
  simp only [ops, List.mem_append] at h
  rcases h with h | h | h | h | h | h
  · exact freshA op h
  · exact freshB op h
  · exact freshC op h
  · exact freshD op h
  · exact freshE op h
  · exact freshF op h

/-! ## The whole line -/

/-- After the 68 operations the result buffer holds the last stage of the argument arrays. -/
theorem out_eq (V : Valuation τ sig (Elt F)) :
    (after ops V (Proc.devRef .tc main_v32) : (⟨S64x512x512, .f32⟩ : BufTy).Contents (Elt F))
      = val_main_v32 (F := F) (V (Proc.devRef .tc main_arg0)) (V (Proc.devRef .tc main_arg1)) (V (Proc.devRef .tc main_arg2)) (V (Proc.devRef .tc main_arg3)) (V (Proc.devRef .tc main_arg4)) := by
  rw [show (ops : List (HloOp τ sig (Elt F))) = opsA ++ (opsB ++ (opsC ++ (opsD ++ (opsE ++ opsF)))) from rfl,
    after_append', after_append', after_append', after_append', after_append']
  refine stretchF _ _ _ _ _ _ (stretchE _ _ _ _ _ _ (stretchD _ _ _ _ _ _ (stretchC _ _ _ _ _ ?_ (stretchB _ _ _ ?_ ?_)) ?_))
  · exact (keptB_v6 _).trans (stretchA V)
  · exact (keptA V).2.1
  · exact (keptA V).2.2.1
  · exact ((keptC _).2.2.2.1).trans (((keptB _).2.2.2.1).trans (keptA V).2.2.2.1)

/-- Each argument array is as it was. -/
theorem args_eq (V : Valuation τ sig (Elt F)) :
    after ops V (Proc.devRef .tc main_arg0) = V (Proc.devRef .tc main_arg0) ∧ after ops V (Proc.devRef .tc main_arg1) = V (Proc.devRef .tc main_arg1)
    ∧ after ops V (Proc.devRef .tc main_arg2) = V (Proc.devRef .tc main_arg2) ∧ after ops V (Proc.devRef .tc main_arg3) = V (Proc.devRef .tc main_arg3)
    ∧ after ops V (Proc.devRef .tc main_arg4) = V (Proc.devRef .tc main_arg4) := by
  rw [show (ops : List (HloOp τ sig (Elt F))) = opsA ++ (opsB ++ (opsC ++ (opsD ++ (opsE ++ opsF)))) from rfl,
    after_append', after_append', after_append', after_append', after_append']
  refine ⟨?_, ?_, ?_, ?_, ?_⟩
  · exact (keptF _).1.trans ((keptE _).1.trans ((keptD _).1.trans ((keptC _).1.trans ((keptB _).1.trans (keptA V).1))))
  · exact (keptF _).2.1.trans ((keptE _).2.1.trans ((keptD _).2.1.trans ((keptC _).2.1.trans ((keptB _).2.1.trans (keptA V).2.1))))
  · exact (keptF _).2.2.1.trans ((keptE _).2.2.1.trans ((keptD _).2.2.1.trans ((keptC _).2.2.1.trans ((keptB _).2.2.1.trans (keptA V).2.2.1))))
  · exact (keptF _).2.2.2.1.trans ((keptE _).2.2.2.1.trans ((keptD _).2.2.2.1.trans ((keptC _).2.2.2.1.trans ((keptB _).2.2.2.1.trans (keptA V).2.2.2.1))))
  · exact (keptF _).2.2.2.2.trans ((keptE _).2.2.2.2.trans ((keptD _).2.2.2.2.trans ((keptC _).2.2.2.2.trans ((keptB _).2.2.2.2.trans (keptA V).2.2.2.2))))

/-- On every device, from any memory with zero counters: every weakly fair execution of the reference's @main terminates
    with the result at the last stage of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v32).trans (out_eq _),
      (h c main_arg0).trans (args_eq _).1,
      (h c main_arg1).trans (args_eq _).2.1,
      (h c main_arg2).trans (args_eq _).2.2.1,
      (h c main_arg3).trans (args_eq _).2.2.2.1,
      (h c main_arg4).trans (args_eq _).2.2.2.2⟩)
    (run_seq scopedRefs_eq scopedSems_eq defs main (fun _ => ops) main_eq (fun _ => ops_sub) m ρ (fun _ => ops_fresh))

end Cert.ReferenceIdeal.StageRun

end
-- ==== Proof.RefSpec.lean ====
/-
  The reference computes the attention weights.  Read one operation at a time, its result at (b, t, c) is the softmax
  over the context axis of: the gathered embedding row of (b, t) at the window position of (b, t, c) — the position
  is always inside the 101 columns, so the index normalisation adds nothing, the in-range test of the fill-mode gather
  is true, and the gather's clamp is the identity — plus the mask word as a float times -1e9.
-/
import proofs.«417531_j38345468019460_2_alg».proof.Proof.RefStages
import proofs.«417531_j38345468019460_2_alg».proof.Proof.Spec
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.RefSpec

open Cert.ReferenceIdeal Cert.ReferenceIdeal.Gen Cert.ReferenceIdeal.Stage Cert.TimeWindow Idealize.ShloMosaic Idealize.ShloMosaic.ValueIdx

/-! ## The window position -/

/-- The reference's window position at (b, t, c). -/
theorem v14_at (x1 x2 : (⟨S64x512, .i32⟩ : BufTy).Contents (Elt Ideal)) (b : Fin 64) (t c : Fin 512) :
    val_main_v14 (F := Ideal) x1 x2 (ix3 b t c) = wpos (x2 (ix2 b c)) (x1 (ix2 b t)) := by
  rw [val_main_v14_apply, val_main_v12_apply, val_main_v13_apply, val_main_c_3_apply, val_main_call0_v4_apply,
    val_main_call0_v3_apply, val_main_c_2_apply, val_main_call0_v2_apply, val_main_call0_v1_apply,
    val_main_call0_v0_apply, val_main_c_1_apply, val_main_v11_apply, val_main_v9_apply, val_main_v7_apply,
    val_main_v10_apply, val_main_v8_apply]
  have e2 : idx_main_v7 (idx_main_v9 (ix3 b t c)) = ix2 b c := by
    funext a
    match a with
    | ⟨0, _⟩ => rfl
    | ⟨1, _⟩ => rfl
  have e1 : idx_main_v8 (idx_main_v10 (ix3 b t c)) = ix2 b t := by
    funext a
    match a with
    | ⟨0, _⟩ => rfl
    | ⟨1, _⟩ => rfl
  rw [e1, e2]
  rfl

/-! ## The index normalisation and the in-range test add nothing -/

/-- A word at most 100 is not negative … -/
theorem slt_zero_of_le {w : BitVec 32} (h : w.toNat ≤ 100) : IntOp.cmpi .slt w 0#32 = 0#1 :=
  eq_zero_of_ne_one (fun h1 => by
    have h2 := (StableHlo.Predicate.slt_iff_toNat (a := w) (b := 0#32) (by omega) (by decide)).1 h1
    exact absurd h2 (Nat.not_lt_zero _))

/-- … is at least 0 … -/
theorem sge_zero_of_le {w : BitVec 32} (h : w.toNat ≤ 100) : IntOp.cmpi .sge w 0#32 = 1#1 :=
  (StableHlo.Predicate.sge_iff_toNat (a := w) (b := 0#32) (by omega) (by decide)).2 (Nat.zero_le _)

/-- … and at most 100, signed. -/
theorem sle_hundred_of_le {w : BitVec 32} (h : w.toNat ≤ 100) : IntOp.cmpi .sle w 100#32 = 1#1 :=
  (StableHlo.Predicate.sle_iff_toNat (a := w) (b := 100#32) (by omega) (by decide)).2 h

/-- The normalised index (101 added where negative) is the window position. -/
theorem call1_v4_at (x1 x2 : (⟨S64x512, .i32⟩ : BufTy).Contents (Elt Ideal)) (b : Fin 64) (t c : Fin 512) :
    val_main_call1_v4 (F := Ideal) x1 x2 (ix3 b t c) = wpos (x2 (ix2 b c)) (x1 (ix2 b t)) := by
  rw [val_main_call1_v4_apply, val_main_call1_v1_apply, val_main_call1_v0_apply, val_main_call1_c_apply, v14_at,
    slt_zero_of_le (wpos_toNat_le _ _), select_zero]

/-- The index array of the gather, with its trailing unit axis. -/
theorem call1_v5_at (x1 x2 : (⟨S64x512, .i32⟩ : BufTy).Contents (Elt Ideal)) (b : Fin 64) (t c : Fin 512) :
    val_main_call1_v5 (F := Ideal) x1 x2 (ix4 b t c (0 : Fin 1)) = wpos (x2 (ix2 b c)) (x1 (ix2 b t)) := by
  rw [val_main_call1_v5_apply]
  have e : idx_main_call1_v5 (ix4 b t c (0 : Fin 1)) = ix3 b t c := by
    have hb := b.isLt
    have ht := t.isLt
    have hc := c.isLt
    funext a
    match a with
    | ⟨0, _⟩ => exact Fin.ext (by show (((b.val * 512 + t.val) * 512 + c.val) * 1 + 0) / 262144 = b.val; omega)
    | ⟨1, _⟩ => exact Fin.ext (by show (((b.val * 512 + t.val) * 512 + c.val) * 1 + 0) / 512 % 512 = t.val; omega)
    | ⟨2, _⟩ => exact Fin.ext (by show (((b.val * 512 + t.val) * 512 + c.val) * 1 + 0) % 512 = c.val; omega)
  rw [e, call1_v4_at]

/-- A fold over the one coordinate of a unit axis is one application. -/
theorem fold_fin_one {α : Type} (f : α → α → α) [Std.Commutative f] [Std.Associative f] (b : α) (g : Fin 1 → α) :
    (Finset.univ : Finset (Fin 1)).fold f b g = f (g 0) b := by
  rw [show (Finset.univ : Finset (Fin 1)) = {0} from rfl, Finset.fold_singleton]

instance andi_comm {w : Nat} : Std.Commutative (IntOp.andi (w := w)) := ⟨fun x y => BitVec.and_comm x y⟩
instance andi_assoc {w : Nat} : Std.Associative (IntOp.andi (w := w)) := ⟨fun x y z => BitVec.and_assoc x y z⟩

/-- The in-range test of the fill-mode gather is true everywhere. -/
theorem call1_v12_at (x1 x2 : (⟨S64x512, .i32⟩ : BufTy).Contents (Elt Ideal)) (b : Fin 64) (t c : Fin 512) :
    val_main_call1_v12 (F := Ideal) x1 x2 (ix3 b t c) = 1#1 := by
  unfold val_main_call1_v12
  have hR : S64x512x512x1.Reduces [3] S64x512x512 := by decide
  rw [Host.reduce_eq_fold_single IntOp.andi _ _ reducesTo_S64x512x512x1_S64x512x512_d3 hR h_S_]
  have hl : hR.lift (ix3 b t c) (0 : Fin 1) = ix4 b t c (0 : Fin 1) := by
    funext a
    match a with
    | ⟨0, _⟩ => rfl
    | ⟨1, _⟩ => rfl
    | ⟨2, _⟩ => rfl
    | ⟨3, _⟩ => rfl
  refine (fold_fin_one IntOp.andi _ (val_main_call1_v11 x1 x2 ∘ hR.lift (ix3 b t c))).trans ?_
  show IntOp.andi (val_main_call1_v11 (F := Ideal) x1 x2 (hR.lift (ix3 b t c) (0 : Fin 1)))
    (val_main_call1_c_3 (F := Ideal) (Shape.Idx.first h_S_)) = 1#1
  rw [hl, val_main_call1_c_3_apply, val_main_call1_v11_apply,
    val_main_call1_v7_apply, val_main_call1_v10_apply, call1_v5_at, val_main_call1_v6_apply, val_main_call1_c_2_apply,
    val_main_call1_v9_apply, val_main_call1_v8_apply, val_main_call1_c_1_apply,
    sge_zero_of_le (wpos_toNat_le _ _), sle_hundred_of_le (wpos_toNat_le _ _)]
  rfl

/-! ## The batched gather along the window axis -/

/-- The dimension numbers of `take_along_axis`'s gather, under a short name. -/
abbrev G101 : GatherDims S64x512x101 S64x512x512x1 S64x512x512 :=
  gather_S64x512x101_S64x512x512x1_S64x512x512_n_2_01_01_2_3_111

/-- The gather of `take_along_axis`: batching axes 0 and 1, the start index on axis 2.  At (b, t, c) it reads the operand's
    row (b, t) at the column `k` that is the start index of (b, t, c), read signed and clamped into the 101 columns. -/
theorem gather_window_apply {α : Type} (X : S64x512x101.Idx → α) (idx : IVec S64x512x512x1 32)
    (b : Fin 64) (t c : Fin 512) (k : Fin 101)
    (hk : k.val = min (idx (ix4 b t c (0 : Fin 1))).toInt.toNat (101 - 1)) :
    Host.gather gather_S64x512x101_S64x512x512x1_S64x512x512_n_2_01_01_2_3_111 X idx (ix3 b t c) = X (ix3 b t k) := by
  unfold Host.gather
  congr 1
  funext a
  refine Fin.ext ?_
  match a with
  | ⟨0, _⟩ =>
    -- a batching axis: no start, the result's coordinate, no offset
    show G101.start (ix3 b t c) idx 0 + G101.batchCoord (ix3 b t c) 0 + G101.offCoord (ix3 b t c) 0 = b.val
    have h1 : G101.start (ix3 b t c) idx 0 = 0 := rfl
    have h2 : G101.batchCoord (ix3 b t c) 0 = b.val := rfl
    have h3 : G101.offCoord (ix3 b t c) 0 = 0 := rfl
    rw [h1, h2, h3, Nat.zero_add, Nat.add_zero]
  | ⟨1, _⟩ =>
    show G101.start (ix3 b t c) idx 1 + G101.batchCoord (ix3 b t c) 1 + G101.offCoord (ix3 b t c) 1 = t.val
    have h1 : G101.start (ix3 b t c) idx 1 = 0 := rfl
    have h2 : G101.batchCoord (ix3 b t c) 1 = t.val := rfl
    have h3 : G101.offCoord (ix3 b t c) 1 = 0 := rfl
    rw [h1, h2, h3, Nat.zero_add, Nat.add_zero]
  | ⟨2, _⟩ =>
    -- the start index map's axis: the clamped start index, no batch coordinate, no offset
    show G101.start (ix3 b t c) idx 2 + G101.batchCoord (ix3 b t c) 2 + G101.offCoord (ix3 b t c) 2 = k.val
    have h2 : G101.batchCoord (ix3 b t c) 2 = 0 := rfl
    have h3 : G101.offCoord (ix3 b t c) 2 = 0 := rfl
    have hsi : G101.siIdx (ix3 b t c) ⟨0, by decide⟩ = ix4 b t c (0 : Fin 1) := by
      funext d
      match d with
      | ⟨0, _⟩ => rfl
      | ⟨1, _⟩ => rfl
      | ⟨2, _⟩ => rfl
      | ⟨3, _⟩ => rfl
    have h1 : G101.start (ix3 b t c) idx 2
        = min (idx (G101.siIdx (ix3 b t c) ⟨0, by decide⟩)).toInt.toNat (101 - 1) := rfl
    rw [h1, h2, h3, hsi]
    omega

/-! ## The logits -/

/-- The gathered entry: the embedding row of (b, t) at the window position of (b, t, c). -/
theorem v15_at (x0 x1 x2 : (⟨S64x512, .i32⟩ : BufTy).Contents (Elt Ideal)) (x4 : (⟨S50000x101, .f32⟩ : BufTy).Contents (Elt Ideal))
    (b : Fin 64) (t c : Fin 512) :
    val_main_v15 (F := Ideal) x0 x1 x2 x4 (ix3 b t c)
      = val_main_v6 (F := Ideal) x0 x4 (ix3 b t (wfin (x2 (ix2 b c)) (x1 (ix2 b t)))) := by
  rw [val_main_v15_apply, call1_v12_at, select_one]
  unfold val_main_call1_v13
  generalize val_main_v6 (F := Ideal) x0 x4 = X
  refine gather_window_apply X _ b t c _ ?_
  rw [call1_v5_at]
  have h := wpos_toNat_le (x2 (ix2 b c)) (x1 (ix2 b t))
  show (wpos (x2 (ix2 b c)) (x1 (ix2 b t))).toNat = _
  rw [toInt_of_toNat_le h]
  omega

/-- The logit at (b, t, c). -/
theorem v21_at (x0 x1 x2 x3 : (⟨S64x512, .i32⟩ : BufTy).Contents (Elt Ideal)) (x4 : (⟨S50000x101, .f32⟩ : BufTy).Contents (Elt Ideal))
    (b : Fin 64) (t c : Fin 512) :
    val_main_v21 (F := Ideal) x0 x1 x2 x3 x4 (ix3 b t c)
      = logitRow (fun w => val_main_v6 (F := Ideal) x0 x4 (ix3 b t w)) (x1 (ix2 b t)) (fun c' => x2 (ix2 b c'))
          (fun c' => x3 (ix2 b c')) c := by
  rw [val_main_v21_apply, v15_at, val_main_v20_apply, val_main_v19_apply, val_main_v18_apply, val_main_cst_apply,
    val_main_v17_apply, val_main_v16_apply]
  have e : idx_main_v16 (idx_main_v20 (ix3 b t c)) = ix2 b c := by
    funext a
    match a with
    | ⟨0, _⟩ => rfl
    | ⟨1, _⟩ => rfl
  rw [e]
  rfl

/-! ## The row maximum and the softmax -/

/-- A fold of the maximum over axis 2 from -∞, at (b, t), is the row's maximum. -/
theorem rowmax_at (L : S64x512x512.Idx → Ideal .f32) (init : S_.Idx → Ideal .f32)
    (hinit : init (Shape.Idx.first h_S_) = Ideal.ofBits .f32 0xFF800000#32) (b : Fin 64) (t : Fin 512) :
    Host.reduce FloatOps.maximumf L init reducesTo_S64x512x512_S64x512_d2 h_S_ (ix2 b t)
      = rowMax (fun c' => L (ix3 b t c')) := by
  have hR : S64x512x512.Reduces [2] S64x512 := by decide
  rw [Host.reduce_eq_fold_single FloatOps.maximumf L init reducesTo_S64x512x512_S64x512_d2 hR h_S_, hinit]
  unfold rowMax
  show Finset.fold max (Ideal.ofBits .f32 0xFF800000#32) (fun k : Fin 512 => L (hR.lift (ix2 b t) k))
      (Finset.univ : Finset (Fin 512)) = _
  refine Finset.fold_congr (fun k _ => congrArg L ?_)
  funext a
  match a with
  | ⟨0, _⟩ => rfl
  | ⟨1, _⟩ => rfl
  | ⟨2, _⟩ => rfl

/-- The reference's row maximum (the fold, then the maximum with -∞ once more, which changes nothing). -/
theorem v24_at (x0 x1 x2 x3 : (⟨S64x512, .i32⟩ : BufTy).Contents (Elt Ideal)) (x4 : (⟨S50000x101, .f32⟩ : BufTy).Contents (Elt Ideal))
    (b : Fin 64) (t : Fin 512) :
    val_main_v24 (F := Ideal) x0 x1 x2 x3 x4 (ix2 b t)
      = rowMax (fun c' => val_main_v21 (F := Ideal) x0 x1 x2 x3 x4 (ix3 b t c')) := by
  rw [val_main_v24_apply, val_main_v23_apply, val_main_cst_5_apply]
  unfold val_main_v22
  rw [rowmax_at (val_main_v21 (F := Ideal) x0 x1 x2 x3 x4) (val_main_cst_4 (F := Ideal)) (val_main_cst_4_apply _) b t]
  show max (Ideal.ofBits .f32 0xFF800000#32) (rowMax _) = rowMax _
  refine max_eq_right ?_
  unfold rowMax
  exact (Finset.le_fold_max _).2 (Or.inl le_rfl)

/-- The exponential of the logit less the row maximum. -/
theorem v28_at (x0 x1 x2 x3 : (⟨S64x512, .i32⟩ : BufTy).Contents (Elt Ideal)) (x4 : (⟨S50000x101, .f32⟩ : BufTy).Contents (Elt Ideal))
    (b : Fin 64) (t k : Fin 512) :
    val_main_v28 (F := Ideal) x0 x1 x2 x3 x4 (ix3 b t k)
      = Ideal.exp (val_main_v21 (F := Ideal) x0 x1 x2 x3 x4 (ix3 b t k)
          - rowMax (fun c' => val_main_v21 (F := Ideal) x0 x1 x2 x3 x4 (ix3 b t c'))) := by
  rw [val_main_v28_apply, val_main_v27_apply, val_main_v26_apply, val_main_v25_apply]
  have e : idx_main_v25 (idx_main_v26 (ix3 b t k)) = ix2 b t := by
    funext a
    match a with
    | ⟨0, _⟩ => rfl
    | ⟨1, _⟩ => rfl
  rw [e, v24_at, Ideal.hostUnary_exp_def, Ideal.subf_def]

/-- The row's sum of exponentials, broadcast back along the context axis. -/
theorem v31_at (x0 x1 x2 x3 : (⟨S64x512, .i32⟩ : BufTy).Contents (Elt Ideal)) (x4 : (⟨S50000x101, .f32⟩ : BufTy).Contents (Elt Ideal))
    (b : Fin 64) (t c : Fin 512) :
    val_main_v31 (F := Ideal) x0 x1 x2 x3 x4 (ix3 b t c)
      = ∑ k : Fin 512, val_main_v28 (F := Ideal) x0 x1 x2 x3 x4 (ix3 b t k) := by
  rw [val_main_v31_apply, val_main_v30_apply]
  have e : idx_main_v30 (idx_main_v31 (ix3 b t c)) = ix2 b t := by
    funext a
    match a with
    | ⟨0, _⟩ => rfl
    | ⟨1, _⟩ => rfl
  rw [e, val_main_v29_apply, val_main_cst_6_apply, Ideal.ofBits_def, Ideal.ofBits_zero_f32, zero_add]
  refine Finset.sum_congr rfl (fun k _ => congrArg _ ?_)
  funext a
  match a with
  | ⟨0, _⟩ => rfl
  | ⟨1, _⟩ => rfl
  | ⟨2, _⟩ => rfl

/-- The reference's result is the attention array of its gathered embedding rows (`val_main_v6`: the table's rows at the
    target concepts), the target times, the context times and the mask. -/
theorem ref_eq_attn (x0 x1 x2 x3 : (⟨S64x512, .i32⟩ : BufTy).Contents (Elt Ideal)) (x4 : (⟨S50000x101, .f32⟩ : BufTy).Contents (Elt Ideal)) :
    val_main_v32 (F := Ideal) x0 x1 x2 x3 x4 = attn (val_main_v6 (F := Ideal) x0 x4) x1 x2 x3 := by
  funext i
  obtain ⟨b, t, c, rfl⟩ : ∃ (b : Fin 64) (t : Fin 512) (c : Fin 512), i = ix3 b t c := ⟨i 0, i 1, i 2, eq_ix3 i⟩
  rw [attn_apply]
  unfold softRow
  rw [val_main_v32_apply, Ideal.hostDivf_def, v31_at, v28_at]
  simp only [v28_at, v21_at]

end Cert.ReferenceIdeal.RefSpec

end
-- ==== Proof.Bridge.lean ====
/-
  The two programs compute one array.  The idealized kernel's output array is the attention array of the arrays its
  region finds (Proof/KernelArray.lean): the gathered embedding rows, which the host operations before the region
  compute from the concepts and the table exactly as the reference does (the same nine operations), and the target
  times, context times and mask, which are arguments.  The reference's result is the attention array of its own
  gathered rows and the same arguments (Proof/RefSpec.lean over its run, Proof/RefRun.lean).  From memories that
  agree on the arguments the two arrays are equal.
-/
import proofs.«417531_j38345468019460_2_alg».proof.Defs
import proofs.«417531_j38345468019460_2_alg».proof.Proof.Gen.Kernel.Frame
import proofs.«417531_j38345468019460_2_alg».proof.Proof.Gen.Pre_finite_inputs
import proofs.«417531_j38345468019460_2_alg».proof.Proof.KernelArray
import proofs.«417531_j38345468019460_2_alg».proof.Proof.RefRun
import proofs.«417531_j38345468019460_2_alg».proof.Proof.RefSpec

noncomputable section

namespace Cert.Proof.Bridge

open Idealize.ShloMosaic Idealize.ShloMosaic.TcCoe Idealize.SL.Sem Idealize.ShloMosaic.StableHlo

/-- The embedding rows the kernel's region finds are the reference's gather stage of the concepts and the table. -/
theorem rows_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v6 : Cert.KernelIdeal.S64x512x101.Idx → Elt Ideal .f32)
      = Cert.ReferenceIdeal.Stage.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg4)) := by
  dsimp only [Cert.KernelIdeal.Gen.V, Cert.KernelIdeal.Gen.hostOps0]
  after_results
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.StageRun.run (F := Ideal) m ρ)

theorem preserves : Cert.preserves_Kernel_KernelIdeal := trivial

/-- Both runs end with the attention array of the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.StageRun.run (F := Ideal) m' ρ')
  rw [(hagree c).1, (hagree c).2.1, (hagree c).2.2.1, (hagree c).2.2.2.1, (hagree c).2.2.2.2,
    Cert.ReferenceIdeal.RefSpec.ref_eq_attn]
  show _ = Cert.TimeWindow.attn (Cert.KernelIdeal.Gen.V m c Cert.KernelIdeal.main_v6) (Cert.KernelIdeal.Gen.V m c Cert.KernelIdeal.main_arg1)
    (Cert.KernelIdeal.Gen.V m c Cert.KernelIdeal.main_arg2) (Cert.KernelIdeal.Gen.V m c Cert.KernelIdeal.main_arg3)
  rw [rows_eq, Cert.KernelIdeal.Gen.V_main_arg1, Cert.KernelIdeal.Gen.V_main_arg2, Cert.KernelIdeal.Gen.V_main_arg3]

end Cert.Proof.Bridge

end
-- ==== Proof.lean ====
/- The proof of `Cert.Claim`: the word-level kernel and its idealization run and leave their arguments alone (their
   frames), the idealization rewrote nothing, and at the ideal values the kernel and the reference both end with the
   softmax, over the context positions, of the embedding entry at the clamped and shifted time difference plus the
   mask times -1e9 — one array of the same arguments (Proof/Bridge.lean). -/
import proofs.«417531_j38345468019460_2_alg».proof.Defs
import proofs.«417531_j38345468019460_2_alg».proof.Proof.Gen.Kernel
import proofs.«417531_j38345468019460_2_alg».proof.Proof.Gen.Kernel.Skeleton
import proofs.«417531_j38345468019460_2_alg».proof.Proof.Gen.Kernel.Launch
import proofs.«417531_j38345468019460_2_alg».proof.Proof.Gen.Kernel.Points
import proofs.«417531_j38345468019460_2_alg».proof.Proof.Gen.Kernel.Frame
import proofs.«417531_j38345468019460_2_alg».proof.Proof.Gen.KernelIdeal
import proofs.«417531_j38345468019460_2_alg».proof.Proof.Gen.KernelIdeal.Skeleton
import proofs.«417531_j38345468019460_2_alg».proof.Proof.Gen.KernelIdeal.Launch
import proofs.«417531_j38345468019460_2_alg».proof.Proof.Gen.KernelIdeal.Points
import proofs.«417531_j38345468019460_2_alg».proof.Proof.Gen.KernelIdeal.Frame
import proofs.«417531_j38345468019460_2_alg».proof.Proof.Gen.ReferenceIdeal
import proofs.«417531_j38345468019460_2_alg».proof.Proof.Gen.Pre_finite_inputs
import proofs.«417531_j38345468019460_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Bridge.frame_kernel, Bridge.frame_kernelIdeal, Bridge.frame_referenceIdeal, Bridge.preserves, Bridge.algebraic⟩

end Cert.Proof

end
